-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1200000 : Shape := ⟨2, ![2, 1200000]⟩
abbrev S1000x64 : Shape := ⟨2, ![1000, 64]⟩
abbrev S3x64x64 : Shape := ⟨3, ![3, 64, 64]⟩
abbrev S3x64 : Shape := ⟨2, ![3, 64]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_v13 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v13 main_v16
  let main_c_6 : IVec S_ 32 := constantI S_ 32 1000#32
  let main_v18 : IVec S100000 32 := broadcastInDim S100000 ![] bcast_S_S100000 main_c_6
  let main_v19 : IVec S100000 1 := cmpi .slt main_arg0 main_v18
  let main_c_7 : IVec S_ 1 := constantI S_ 1 1#1
  let main_v20 : IVec S_ 1 := (fun x v => Host.reduce IntOp.andi x v reducesTo_S100000_S_d0 h_S_) main_v19 main_c_7
  let main_v21 : IVec S_ 1 := andi main_v17 main_v20
  main_v21

def fn {F : FTy → Type} [FloatOps F] (main_arg0 : IVec S100000 32) (main_arg1 : IVec S2x1200000 32) (main_arg2 : IVec S100000 32) (main_arg3 : FVec F S1000x64 .f32) (main_arg4 : FVec F S3x64x64 .f32) (main_arg5 : FVec F S3x64 .f32) : IVec S_ 1 :=
  let main_v0 : FVec F S1000x64 .f32 := Host.absf main_arg3
  let main_cst : FVec F S_ .f32 := constant S_ .f32 0x7F800000#32
  let main_v1 : FVec F S1000x64 .f32 := broadcastInDim S1000x64 ![] bcast_S_S1000x64 main_cst
  let main_v2 : IVec S1000x64 1 := cmpf .olt main_v0 main_v1
  let main_c : IVec S_ 1 := constantI S_ 1 1#1
  let main_v3 : IVec S_ 1 := (fun x v => Host.reduce IntOp.andi x v reducesTo_S1000x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg0 main_v14
  let main_c_5 : IVec S_ 1 := constantI S_ 1 1#1
  fn_part1 (F := F) main_arg0 main_v13 main_v15 main_c_5
-- ==== Kernel.lean ====
abbrev S100000 : Shape := ⟨1, ![100000]⟩
abbrev S2x1200000 : Shape := ⟨2, ![2, 1200000]⟩
abbrev S1000x64 : Shape := ⟨2, ![1000, 64]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S100000x64 : Shape := ⟨2, ![100000, 64]⟩
abbrev S1000x1 : Shape := ⟨2, ![1000, 1]⟩
abbrev S1000x1000 : Shape := ⟨2, ![1000, 1000]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S2000x64 : Shape := ⟨2, ![2000, 64]⟩
abbrev S2000x1 : Shape := ⟨2, ![2000, 1]⟩
abbrev S64x1 : Shape := ⟨2, ![64, 1]⟩

abbrev nBuf : Space → Nat
  | .hbm => 115
  | .vmem => 39
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S100000, .i32⟩
  | .hbm, ⟨3, _⟩ => ⟨S1000x64, .f32⟩
  | .hbm, ⟨4, _⟩ => ⟨S3x64x64, .f32⟩
  | .hbm, ⟨5, _⟩ => ⟨S3x64, .f32⟩
  | .hbm, ⟨6, _⟩ => ⟨S1x1200000, .i32⟩
  | .hbm, ⟨7, _⟩ => ⟨S1200000, .i32⟩
  | .hbm, ⟨8, _⟩ => ⟨S1x1200000, .i32⟩
  | .hbm, ⟨9, _⟩ => ⟨S1200000, .i32⟩
  | .hbm, ⟨10, _⟩ => ⟨S_, .f32⟩
  | .hbm, ⟨11, _⟩ => ⟨S1200000, .f32⟩
  | .hbm, ⟨12, _⟩ => ⟨S_, .f32⟩
  | .hbm, ⟨13, _⟩ => ⟨S100000, .f32⟩
  | .hbm, ⟨14, _⟩ => ⟨S1200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .i32⟩
  | .hbm, ⟨33, _⟩ => ⟨S100000x1, .f32⟩
  | .hbm, ⟨34, _⟩ => ⟨S100000x1, .f32⟩
  | .hbm, ⟨35, _⟩ => ⟨S1000x64, .bf16⟩
  | .hbm, ⟨36, _⟩ => ⟨S100000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S1x64x64, .f32⟩
  | .hbm, ⟨51, _⟩ => ⟨S64x64, .f32⟩
  | .hbm, ⟨52, _⟩ => ⟨S64x64, .bf16⟩
  | .hbm, ⟨53, _⟩ => ⟨S1x64, .f32⟩
  | .hbm, ⟨54, _⟩ => ⟨S64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1200000, .i32⟩
  | .hbm, ⟨60, _⟩ => ⟨S1200000, .i1⟩
  | .hbm, ⟨61, _⟩ => ⟨S_, .i32⟩
  | .hbm, ⟨62, _⟩ => ⟨S1200000, .i32⟩
  | .hbm, ⟨63, _⟩ => ⟨S1200000, .i32⟩
  | .hbm, ⟨64, _⟩ => ⟨S1200000, .i32⟩
  | .hbm, ⟨65, _⟩ => ⟨S1200000x1, .i32⟩
  | .hbm, ⟨66, _⟩ => ⟨S1200000x64, .f32⟩
  | .hbm, ⟨67, _⟩ => ⟨S_, .f32⟩
  | .hbm, ⟨68, _⟩ => ⟨S100000x64, .f32⟩
  | .hbm, ⟨69, _⟩ => ⟨S1200000x1, .i32⟩
  | .hbm, ⟨70, _⟩ => ⟨S100000x64, .f32⟩
  | .hbm, ⟨71, _⟩ => ⟨S1x64x64, .f32⟩
  | .hbm, ⟨72, _⟩ => ⟨S64x64, .f32⟩
  | .hbm, ⟨73, _⟩ => ⟨S64x64, .bf16⟩
  | .hbm, ⟨74, _⟩ => ⟨S1x64, .f32⟩
  | .hbm, ⟨75, _⟩ => ⟨S64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .i32⟩
  | .hbm, ⟨80, _⟩ => ⟨S1200000, .i32⟩
  | .hbm, ⟨81, _⟩ => ⟨S1200000, .i1⟩
  | .hbm, ⟨82, _⟩ => ⟨S_, .i32⟩
  | .hbm, ⟨83, _⟩ => ⟨S1200000, .i32⟩
  | .hbm, ⟨84, _⟩ => ⟨S1200000, .i32⟩
  | .hbm, ⟨85, _⟩ => ⟨S1200000, .i32⟩
  | .hbm, ⟨86, _⟩ => ⟨S1200000x1, .i32⟩
  | .hbm, ⟨87, _⟩ => ⟨S1200000x64, .f32⟩
  | .hbm, ⟨88, _⟩ => ⟨S_, .f32⟩
  | .hbm, ⟨89, _⟩ => ⟨S100000x64, .f32⟩
  | .hbm, ⟨90, _⟩ => ⟨S1200000x1, .i32⟩
  | .hbm, ⟨91, _⟩ => ⟨S100000x64, .f32⟩
  | .hbm, ⟨92, _⟩ => ⟨S1x64x64, .f32⟩
  | .hbm, ⟨93, _⟩ => ⟨S64x64, .f32⟩
  | .hbm, ⟨94, _⟩ => ⟨S64x64, .bf16⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S100000x64, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S64, .f32⟩
  | .hbm, ⟨103, _⟩ => ⟨S100000x1, .i32⟩
  | .hbm, ⟨104, _⟩ => ⟨S64, .f32⟩
  | .hbm, ⟨105, _⟩ => ⟨S_, .f32⟩
  | .hbm, ⟨106, _⟩ => ⟨S64x64, .f32⟩
  | .hbm, ⟨107, _⟩ => ⟨S100000x1, .i32⟩
  | .hbm, ⟨108, _⟩ => ⟨S64x64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x64, .f32⟩
  | .hbm, ⟨114, _⟩ => ⟨S64x64, .f32⟩
  | .local _ .vmem, ⟨0, _⟩ => ⟨S1000x1, .i32⟩
  | .local _ .vmem, ⟨1, _⟩ => ⟨S1000x1, .i32⟩
  | .local _ .vmem, ⟨2, _⟩ => ⟨S1000x1, .f32⟩
  | .local _ .vmem, ⟨3, _⟩ => ⟨S1000x1, .f32⟩
  | .local _ .vmem, ⟨4, _⟩ => ⟨S1000x64, .bf16⟩
  | .local _ .vmem, ⟨5, _⟩ => ⟨S1000x64, .f32⟩
  | .local _ .vmem, ⟨6, _⟩ => ⟨S1000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S64x64, .bf16⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S2000x1, .f32⟩
  | .local _ .vmem, ⟨25, _⟩ => ⟨S64x64, .bf16⟩
  | .local _ .vmem, ⟨26, _⟩ => ⟨S1x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x1, .f32⟩
  | .local _ .vmem, ⟨34, _⟩ => ⟨S2000x1, .f32⟩
  | .local _ .vmem, ⟨35, _⟩ => ⟨S64x64, .bf16⟩
  | .local _ .vmem, ⟨36, _⟩ => ⟨S1x64, .f32⟩
  | .local _ .vmem, ⟨37, _⟩ => ⟨S2000x64, .f32⟩
  | .local _ .vmem, ⟨38, _⟩ => ⟨S2000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem4_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  bitsLt_bf16_f32 : FTy.bits .bf16 < FTy.bits .f32
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x1000_d1_w32 : S1000x1000.Iotas .tc 32 [1]
  broadcasts_S1000x1_S1000x1000 : S1000x1.Broadcasts S1000x1000
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1000x1_S1000x64 : S1000x1.Broadcasts S1000x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S64 : S_.BroadcastsInDim S64 (![] : Fin 0 → Fin S64.rank)
  bcast_S100000_S100000x1_0 : S100000.BroadcastsInDim S100000x1 (![0] : Fin 1 → Fin S100000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1200000x1_S1200000_n_0_0_1_wf : ScatterDims.WF S100000 S1200000x1 S1200000 [] [0] [0] 1
  dot_S1000x1000_S1000x64_S1000x64_1_0_0_1_n_n_wf : DotDims.WF S1000x1000 S1000x64 S1000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S2000x64_S64x64_S2000x64_1_0_0_1_n_n_wf : DotDims.WF S2000x64 S64x64 S2000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S100000x1.size a
  hwx0_0 : ∀ i : grid0.Coords, EltTy.bits .i32 = 32 ∨ (Rect.block (s := S100000x1) S1000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S100000x1.size a
  hwx0_1 : ∀ i : grid0.Coords, EltTy.bits .f32 = 32 ∨ (Rect.block (s := S100000x1) S1000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S1000x64.size a
  hwx0_2 : ∀ i : grid0.Coords, EltTy.bits .bf16 = 32 ∨ (Rect.block (s := S1000x64) S1000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S100000x64.size a
  hwx0_3 : ∀ i : grid0.Coords, EltTy.bits .f32 = 32 ∨ (Rect.block (s := S100000x64) S1000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .bf16 = 32 ∨ (Rect.block (s := S64x64) S64x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

abbrev win0_0 : Pipeline.Window sig grid0 :=
  Pipeline.Window.ofSpec (Memref.whole main_v19) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1000x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S2000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57_0) S2000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v57_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000 : Shape := ⟨1, ![100000]⟩
abbrev S2x1200000 : Shape := ⟨2, ![2, 1200000]⟩
abbrev S1000x64 : Shape := ⟨2, ![1000, 64]⟩
abbrev S3x64x64 : Shape := ⟨3, ![3, 64, 64]⟩
abbrev S3x64 : Shape := ⟨2, ![3, 64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S100000x64 : Shape := ⟨2, ![100000, 64]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩

abbrev nBuf : Space → Nat
  | .hbm => 147
  | .vmem => 0
  | .smem => 0
  | _ => 0

abbrev hbmTy0_0 (i : Nat) : BufTy := match i % 128 with
  | 0 => ⟨S100000, .i32⟩
  | 1 => ⟨S2x1200000, .i32⟩
  | 2 => ⟨S100000, .i32⟩
  | 3 => ⟨S1000x64, .f32⟩
  | 4 => ⟨S3x64x64, .f32⟩
  | 5 => ⟨S3x64, .f32⟩
  | 6 => ⟨S1x1200000, .i32⟩
  | 7 => ⟨S1200000, .i32⟩
  | 8 => ⟨S1x1200000, .i32⟩
  | 9 => ⟨S1200000, .i32⟩
  | 10 => ⟨S_, .f32⟩
  | 11 => ⟨S1200000, .f32⟩
  | 12 => ⟨S_, .f32⟩
  | 13 => ⟨S100000, .f32⟩
  | 14 => ⟨S1200000x1, .i32⟩
  | 15 => ⟨S100000, .f32⟩
  | 16 => ⟨S_, .f32⟩
  | 17 => ⟨S100000, .f32⟩
  | 18 => ⟨S1200000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S_, .i32⟩
  | 33 => ⟨S100000, .i32⟩
  | 34 => ⟨S100000, .i1⟩
  | 35 => ⟨S_, .i32⟩
  | 36 => ⟨S100000, .i32⟩
  | 37 => ⟨S100000, .i32⟩
  | 38 => ⟨S100000, .i32⟩
  | 39 => ⟨S100000x1, .i32⟩
  | 40 => ⟨S100000x64, .f32⟩
  | 41 => ⟨S100000x1, .f32⟩
  | 42 => ⟨S100000x64, .f32⟩
  | 43 => ⟨S100000x64, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000x64, .f32⟩
  | 53 => ⟨S_, .f32⟩
  | 54 => ⟨S100000x64, .f32⟩
  | 55 => ⟨S1200000x1, .i32⟩
  | 56 => ⟨S100000x64, .f32⟩
  | 57 => ⟨S100000x1, .f32⟩
  | 58 => ⟨S100000x64, .f32⟩
  | 59 => ⟨S100000x64, .f32⟩
  | 60 => ⟨S1x64x64, .f32⟩
  | 61 => ⟨S64x64, .f32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x1, .f32⟩
  | 72 => ⟨S100000x64, .f32⟩
  | 73 => ⟨S100000x64, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .f32⟩
  | 83 => ⟨S_, .f32⟩
  | 84 => ⟨S100000x64, .f32⟩
  | 85 => ⟨S1200000x1, .i32⟩
  | 86 => ⟨S100000x64, .f32⟩
  | 87 => ⟨S100000x1, .f32⟩
  | 88 => ⟨S100000x64, .f32⟩
  | 89 => ⟨S100000x64, .f32⟩
  | 90 => ⟨S1x64x64, .f32⟩
  | 91 => ⟨S64x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x1, .f32⟩
  | 102 => ⟨S100000x64, .f32⟩
  | 103 => ⟨S100000x64, .f32⟩
  | 104 => ⟨S_, .i32⟩
  | 105 => ⟨S1200000, .i32⟩
  | 106 => ⟨S1200000, .i1⟩
  | 107 => ⟨S_, .i32⟩
  | 108 => ⟨S1200000, .i32⟩
  | 109 => ⟨S1200000, .i32⟩
  | 110 => ⟨S1200000, .i32⟩
  | 111 => ⟨S1200000x1, .i32⟩
  | 112 => ⟨S1200000x64, .f32⟩
  | 113 => ⟨S_, .f32⟩
  | 114 => ⟨S100000x64, .f32⟩
  | 115 => ⟨S1200000x1, .i32⟩
  | 116 => ⟨S100000x64, .f32⟩
  | 117 => ⟨S100000x1, .f32⟩
  | 118 => ⟨S100000x64, .f32⟩
  | 119 => ⟨S100000x64, .f32⟩
  | 120 => ⟨S1x64x64, .f32⟩
  | 121 => ⟨S64x64, .f32⟩
  | 122 => ⟨S100000x64, .f32⟩
  | 123 => ⟨S1x64, .f32⟩
  | 124 => ⟨S64, .f32⟩
  | 125 => ⟨S1x64, .f32⟩
  | 126 => ⟨S100000x64, .f32⟩
  | 127 => ⟨S100000x64, .f32⟩
  | _ => ⟨S100000, .i32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000, .f32⟩
  | 5 => ⟨S_, .f32⟩
  | 6 => ⟨S64, .f32⟩
  | 7 => ⟨S100000x1, .i32⟩
  | 8 => ⟨S64, .f32⟩
  | 9 => ⟨S_, .f32⟩
  | 10 => ⟨S64x64, .f32⟩
  | 11 => ⟨S100000x1, .i32⟩
  | 12 => ⟨S64x64, .f32⟩
  | 13 => ⟨S_, .f32⟩
  | 14 => ⟨S64, .f32⟩
  | 15 => ⟨S64, .f32⟩
  | 16 => ⟨S64x1, .f32⟩
  | 17 => ⟨S64x64, .f32⟩
  | 18 => ⟨S64x64, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_13 : Ref sig .tc := ⟨.hbm, 104, rfl⟩
abbrev main_v79 : Ref sig .tc := ⟨.hbm, 105, rfl⟩
abbrev main_v80 : Ref sig .tc := ⟨.hbm, 106, rfl⟩
abbrev main_c_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call2_cst : Ref sig .tc := ⟨.hbm, 128, rfl⟩
abbrev main_call2_v0 : Ref sig .tc := ⟨.hbm, 129, rfl⟩
abbrev main_v100 : Ref sig .tc := ⟨.hbm, 130, rfl⟩
abbrev main_cst_16 : Ref sig .tc := ⟨.hbm, 131, rfl⟩
abbrev main_v101 : Ref sig .tc := ⟨.hbm, 132, rfl⟩
abbrev main_cst_17 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_18 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_19 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1200000x1_S1200000_n_0_0_1_wf : ScatterDims.WF S100000 S1200000x1 S1200000 [] [0] [0] 1
  gather_S1000x64_S100000x1_S100000x64_1_0_n_n_0_1_164_wf : GatherDims.WF S1000x64 S100000x1 S100000x64 [1] [0] [] [0] [] 1 ![1, 64]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf

class Facts : Prop extends Facts₀ where

variable [Facts]
-- ==== Proof.Spec.lean ====
/-
  The mathematics of the graph network, layer by layer, as functions of whole arrays read index by index over the
  extended reals. N = 100000 nodes, D = 64 features, T = 1000 node types.

  * `embScaled nf on emb` : row n is the embedding row selected by the node's type, written as the sum over all types t
    of the indicator [nf n = t] times row t of the table, times the node's out-degree norm.
  * `layer agg inn W b`   : row n is max((agg n · inn n) W + b, 0): the aggregated features scaled by the in-degree
    norm, one dense map, the bias, the rectifier.
  * `layerScaled …  on`   : the same row times the node's out-degree norm (what the next aggregation reads).
-/
import Idealize.ShloMosaic.PureOps.Ideal
import Idealize.ShloMosaic.Lib.ValueIdx

noncomputable section

namespace Cert.Spec

open Idealize.ShloMosaic Idealize.ShloMosaic.ValueIdx

abbrev SNx1 : Shape := ⟨2, ![100000, 1]⟩
abbrev SNxD : Shape := ⟨2, ![100000, 64]⟩
abbrev STxD : Shape := ⟨2, ![1000, 64]⟩
abbrev SDxD : Shape := ⟨2, ![64, 64]⟩
abbrev S1xD : Shape := ⟨2, ![1, 64]⟩

/-- The indicator of "node type x is t" as an extended real. -/
def ind (x : BitVec 32) (t : Fin 1000) : EReal := if x = BitVec.ofNat 32 t.val then 1 else 0

/-- Entry (n, d) of the scaled embedding lookup. -/
def embScaledAt (nf : SNx1.Idx → BitVec 32) (on : SNx1.Idx → EReal) (emb : STxD.Idx → EReal)
    (n : Fin 100000) (d : Fin 64) : EReal :=
  (∑ t : Fin 1000, ind (nf (ix2 n 0)) t * emb (ix2 t d)) * on (ix2 n 0)

/-- The scaled embedding lookup as a whole array. -/
def embScaled (nf : SNx1.Idx → BitVec 32) (on : SNx1.Idx → EReal) (emb : STxD.Idx → EReal) : SNxD.Idx → EReal :=
  fun i => embScaledAt nf on emb (i 0) (i 1)

/-- Entry (n, d) of one layer's output. -/
def layerAt (agg : SNxD.Idx → EReal) (inn : SNx1.Idx → EReal) (W : SDxD.Idx → EReal) (b : S1xD.Idx → EReal)
    (n : Fin 100000) (d : Fin 64) : EReal :=
  max ((∑ k : Fin 64, (agg (ix2 n k) * inn (ix2 n 0)) * W (ix2 k d)) + b (ix2 0 d)) 0

/-- One layer's output as a whole array. -/
def layer (agg : SNxD.Idx → EReal) (inn : SNx1.Idx → EReal) (W : SDxD.Idx → EReal) (b : S1xD.Idx → EReal) : SNxD.Idx → EReal :=
  fun i => layerAt agg inn W b (i 0) (i 1)

/-- One layer's output scaled row by row by the out-degree norm. -/
def layerScaled (agg : SNxD.Idx → EReal) (inn : SNx1.Idx → EReal) (W : SDxD.Idx → EReal) (b : S1xD.Idx → EReal)
    (on : SNx1.Idx → EReal) : SNxD.Idx → EReal :=
  fun i => layerAt agg inn W b (i 0) (i 1) * on (ix2 (i 0) 0)

end Cert.Spec

end
-- ==== Proof.KReg0.lean ====
import proofs.«427412_j88940182766121_1_alg».proof.Proof.Gen.KernelIdeal.Frame
import proofs.«427412_j88940182766121_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The words of the indicator matrix -/

/-- The comparison bit of two 32-bit words, widened to 32 bits and converted, is over the extended reals the indicator
    of their equality: 1 when the node's type is `t`, 0 otherwise. -/
theorem ind_word (a : BitVec 32) (t : Fin 1000) :
    FloatOps.sitofp (F := Ideal) .f32 ((IntOp.cmpi .eq a (BitVec.ofNat 32 t.val)).setWidth 32) = Cert.Spec.ind a t := by
  unfold Cert.Spec.ind
  by_cases h : a = BitVec.ofNat 32 t.val
  · rw [if_pos h, ← h]
    have e : IntOp.cmpi .eq a a = 1#1 := by simp [IntOp.cmpi]
    rw [e]
    show ((((1#1 : BitVec 1).setWidth 32).toInt : ℝ) : EReal) = 1
    have e1 : ((1#1 : BitVec 1).setWidth 32).toInt = 1 := by decide
    rw [e1]; simp
  · rw [if_neg h]
    have hb : (a == BitVec.ofNat 32 t.val) = false := beq_false_of_ne h
    have e : IntOp.cmpi .eq a (BitVec.ofNat 32 t.val) = 0#1 := by
      show BitVec.ofBool (a == BitVec.ofNat 32 t.val) = 0#1
      rw [hb]; rfl
    rw [e]
    show ((((0#1 : BitVec 1).setWidth 32).toInt : ℝ) : EReal) = 0
    have e0 : ((0#1 : BitVec 1).setWidth 32).toInt = 0 := by decide
    rw [e0]; simp

/-- The column counter of the 1000 × 1000 grid of types reads, at row `r` and column `t`, the word of `t`. -/
theorem iota_at (r t : Fin 1000) :
    iota .tc S1000x1000 32 [1] iota_S1000x1000_d1_w32 (ix2 r t) = BitVec.ofNat 32 t.val := by
  show BitVec.ofNat 32 (0 * 1000 + t.val) = _
  rw [Nat.zero_mul, Nat.zero_add]

/-! ## A column broadcast over many columns -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product with the table, at an index -/

theorem lhs_types_0 (i : S1000x64.Idx) (q : dot_S1000x1000_S1000x64_S1000x64_1_0_0_1_n_n.contr.Idx) :
    (dot_S1000x1000_S1000x64_S1000x64_1_0_0_1_n_n.lhsIdx i q 0).val = (i 0).val := by
  unfold DotDims.lhsIdx
  rw [dif_neg (show ¬(0 : Fin S1000x1000.rank) ∈ dot_S1000x1000_S1000x64_S1000x64_1_0_0_1_n_n.lhsBatch by decide), dif_pos (show (0 : Fin S1000x1000.rank) ∈ dot_S1000x1000_S1000x64_S1000x64_1_0_0_1_n_n.lhsNonContracting by decide)]
  rfl
theorem lhs_types_1 (i : S1000x64.Idx) (q : dot_S1000x1000_S1000x64_S1000x64_1_0_0_1_n_n.contr.Idx) :
    (dot_S1000x1000_S1000x64_S1000x64_1_0_0_1_n_n.lhsIdx i q 1).val = (q ⟨0, by decide⟩).val :=
  dot_S1000x1000_S1000x64_S1000x64_1_0_0_1_n_n.lhsIdx_val_of_single rfl i q
theorem rhs_types_0 (i : S1000x64.Idx) (q : dot_S1000x1000_S1000x64_S1000x64_1_0_0_1_n_n.contr.Idx) :
    (dot_S1000x1000_S1000x64_S1000x64_1_0_0_1_n_n.rhsIdx i q 0).val = (q ⟨0, by decide⟩).val :=
  dot_S1000x1000_S1000x64_S1000x64_1_0_0_1_n_n.rhsIdx_val_of_single rfl i q
theorem rhs_types_1 (i : S1000x64.Idx) (q : dot_S1000x1000_S1000x64_S1000x64_1_0_0_1_n_n.contr.Idx) :
    (dot_S1000x1000_S1000x64_S1000x64_1_0_0_1_n_n.rhsIdx i q 1).val = (i 1).val := by
  unfold DotDims.rhsIdx
  rw [dif_neg (show ¬(1 : Fin S1000x64.rank) ∈ dot_S1000x1000_S1000x64_S1000x64_1_0_0_1_n_n.rhsBatch by decide), dif_pos (show (1 : Fin S1000x64.rank) ∈ dot_S1000x1000_S1000x64_S1000x64_1_0_0_1_n_n.rhsNonContracting by decide)]
  rfl

/-- The product of a 1000 × 1000 matrix with a 1000 × 64 one, accumulated into zero, reads at `(p, q)` the sum over the
    1000 types of the products of row `p` and column `q`. -/
theorem matmul_types_at (L : FVec Ideal S1000x1000 .bf16) (R : FVec Ideal S1000x64 .bf16) (p : Fin 1000) (q : Fin 64) :
    matmul dot_S1000x1000_S1000x64_S1000x64_1_0_0_1_n_n none L R (constant (F := Ideal) S1000x64 .f32 0x00000000#32) (ix2 p q)
      = ∑ t : Fin 1000, L (ix2 p t) * R (ix2 t q) := by
  refine (Ideal.matmul_constant_zero_apply dot_S1000x1000_S1000x64_S1000x64_1_0_0_1_n_n none L R (ix2 p q)).trans ?_
  rw [← Equiv.sum_comp (ValueIdx.contrEquiv1 dot_S1000x1000_S1000x64_S1000x64_1_0_0_1_n_n 1000 rfl rfl).symm]
  refine Finset.sum_congr rfl fun k _ => ?_
  have hk := ValueIdx.contrEquiv1_symm_val dot_S1000x1000_S1000x64_S1000x64_1_0_0_1_n_n 1000 rfl rfl k
  have el : dot_S1000x1000_S1000x64_S1000x64_1_0_0_1_n_n.lhsIdx (ix2 p q) ((ValueIdx.contrEquiv1 dot_S1000x1000_S1000x64_S1000x64_1_0_0_1_n_n 1000 rfl rfl).symm k) = ix2 p k := funext fun a => Fin.ext (by
    match a with
    | ⟨0, _⟩ => exact lhs_types_0 _ _
    | ⟨1, _⟩ => exact (lhs_types_1 _ _).trans hk)
  have er : dot_S1000x1000_S1000x64_S1000x64_1_0_0_1_n_n.rhsIdx (ix2 p q) ((ValueIdx.contrEquiv1 dot_S1000x1000_S1000x64_S1000x64_1_0_0_1_n_n 1000 rfl rfl).symm k) = ix2 k q := funext fun a => Fin.ext (by
    match a with
    | ⟨0, _⟩ => exact (rhs_types_0 _ _).trans hk
    | ⟨1, _⟩ => exact rhs_types_1 _ _)
  rw [el, er]

/-! ## The body's payload at an index -/

/-- Entry `(p, q)` of what the body stores, from the blocks it loads: the sum over the types of the indicator of row
    `p`'s node type times the table's entry, times row `p`'s norm. -/
theorem payload_at (x0 : Vec Ideal S1000x1 .i32) (x2 : Vec Ideal S1000x64 .bf16) (x1 : Vec Ideal S1000x1 .f32)
    (p : Fin 1000) (q : Fin 64) :
    k0_pay1 (F := Ideal) x0 x2 x1 (ix2 p q)
      = (∑ t : Fin 1000, Cert.Spec.ind (x0 (ix2 p (0 : Fin 1))) t * x2 (ix2 t q)) * x1 (ix2 p (0 : Fin 1)) := by
  unfold k0_pay1
  rw [shapeCast_self, shapeCast_self, shapeCast_self]
  refine (mulf_apply _ _ _).trans ?_
  rw [matmul_types_at, broadcastTo_a1_ab_apply]
  refine congrArg (· * x1 (ix2 p (0 : Fin 1))) (Finset.sum_congr rfl fun t _ => ?_)
  refine congrArg (· * x2 (ix2 t q)) ?_
  show FloatOps.sitofp (F := Ideal) .f32 ((IntOp.cmpi .eq (broadcastTo S1000x1000 x0 broadcasts_S1000x1_S1000x1000 (ix2 p t)) (iota .tc S1000x1000 32 [1] iota_S1000x1000_d1_w32 (ix2 p t))).setWidth 32) = _
  rw [broadcastTo_a1_ab_apply, iota_at]
  exact ind_word _ t

/-! ## From the blocks to the array -/

theorem origin_eq : (![0, 0] : Fin 2 → Nat) = fun _ => 0 := funext fun a => by fin_cases a <;> rfl

/-- The printed index maps, decided over the grid: at point `t` the node-type, norm and output windows sit at block row
    `t`, column block 0; the table's window is the whole table. -/
theorem block_rows : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- WHAT POINT `t` WRITES BACK is block `t` of the scaled embedding lookup of the arrays the region is entered with. -/
theorem flushed_eq (c : Dev nD) (t : Fin cfg0.N) :
    (dat0 (F := Ideal) V c).flushed 3 t
      = ((cfg0.win 3).blk t).view.read (Elt Ideal) (Cert.Spec.embScaled (V c main_v19) (V c main_v20) (V c main_v22)) := by
  show (cfg0.win 3).cut (grid0.coords t) ((dat0 V c).after 3 t) = _
  rw [after0_3]
  unfold out0_3
  rw [View.canon_unit_zero origin_eq]
  simp only [View.ld_unit_zero (S := S1000x1) origin_eq, View.ld_unit_zero (S := S1000x64) origin_eq]
  obtain ⟨e00, e01, e10, e11, e20, e21, e30, e31⟩ := block_rows t
  funext j
  obtain ⟨p, q, rfl⟩ : ∃ (p : Fin 1000) (q : Fin 64), j = ix2 p q := ⟨j 0, j 1, eq_ix2 j⟩
  show k0_pay1 (F := Ideal) (iblk0 V c 0 t) (iblk0 V c 2 t) (iblk0 V c 1 t) (ix2 p q) = _
  refine (payload_at _ _ _ p q).trans ?_
  have hA : iblk0 V c 0 t (ix2 p (0 : Fin 1))
      = V c main_v19 (ix2 (((cfg0.win 3).blk t).view.emb (ix2 p q) 0) (0 : Fin 1)) := by
    show V c main_v19 (((cfg0.win 0).blk t).view.emb (ix2 p (0 : Fin 1))) = _
    refine congrArg (V c main_v19) (funext fun a => Fin.ext ?_)
    match a with
    | ⟨0, _⟩ => show win0_0.index t (0 : Fin 2) * 1000 + 1 * p.val = win0_3.index t (0 : Fin 2) * 1000 + 1 * p.val; omega
    | ⟨1, _⟩ => show win0_0.index t (1 : Fin 2) * 1 + 1 * 0 = 0; omega
  have hB : iblk0 V c 1 t (ix2 p (0 : Fin 1))
      = V c main_v20 (ix2 (((cfg0.win 3).blk t).view.emb (ix2 p q) 0) (0 : Fin 1)) := by
    show V c main_v20 (((cfg0.win 1).blk t).view.emb (ix2 p (0 : Fin 1))) = _
    refine congrArg (V c main_v20) (funext fun a => Fin.ext ?_)
    match a with
    | ⟨0, _⟩ => show win0_1.index t (0 : Fin 2) * 1000 + 1 * p.val = win0_3.index t (0 : Fin 2) * 1000 + 1 * p.val; omega
    | ⟨1, _⟩ => show win0_1.index t (1 : Fin 2) * 1 + 1 * 0 = 0; omega
  have hC : ∀ k : Fin 1000, iblk0 V c 2 t (ix2 k q)
      = V c main_v22 (ix2 k (((cfg0.win 3).blk t).view.emb (ix2 p q) 1)) := fun k => by
    show V c main_v22 (((cfg0.win 2).blk t).view.emb (ix2 k q)) = _
    refine congrArg (V c main_v22) (funext fun a => Fin.ext ?_)
    match a with
    | ⟨0, _⟩ => show win0_2.index t (0 : Fin 2) * 1000 + 1 * k.val = k.val; omega
    | ⟨1, _⟩ => show win0_2.index t (1 : Fin 2) * 64 + 1 * q.val = win0_3.index t (1 : Fin 2) * 64 + 1 * q.val; omega
  rw [hA, hB]
  simp only [hC]
  rfl

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v23).slice (win0_3.rect t)).set ↔ _
  rw [View.set_slice_whole, Rect.mem_set_unit]
  exact Iff.rfl

/-- THE COVER: row `r` of the output array lies in the block of point `r / 1000`; the hundred blocks of a thousand rows
    tile the hundred thousand rows. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 1000 :=
    ⟨⟨(i 0).val / 1000, by show (i 0).val / 1000 < 100; omega⟩, rfl⟩
  obtain ⟨-, -, -, -, -, -, e30, e31⟩ := block_rows t
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 64 ≤ (i 1).val ∧ (i 1).val < win0_3.index t (1 : Fin 2) * 64 + 64; omega

/-- Region 0 leaves in its output array the scaled embedding lookup of the arrays it is entered with. -/
theorem final (c : Dev nD) :
    (dat0 (F := Ideal) V c).arrAt 3 cfg0.N = Cert.Spec.embScaled (V c main_v19) (V c main_v20) (V c main_v22) :=
  (dat0 (F := Ideal) V c).arrAt_eq_of_cover 3 _ (fun t _ => flushed_eq V c t) covered

end Cert.KernelIdeal.Reg0

end
-- ==== Proof.KReg1.lean ====
import proofs.«427412_j88940182766121_1_alg».proof.Proof.Gen.KernelIdeal.Frame
import proofs.«427412_j88940182766121_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One row's dense map: the body's arithmetic read at an index -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row … -/
theorem lhs_rowDense_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and at the summed feature; -/
theorem lhs_rowDense_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the weights at the summed feature … -/
theorem rhs_rowDense_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and at the output's feature. -/
theorem rhs_rowDense_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A block of rows times the weights, into a zero accumulator, at `(p, q)`: the sum over the 64 features. -/
theorem rowDense_apply (y0 : FVec Ideal S2000x64 .bf16) (y1 : FVec Ideal S64x64 .bf16) (p : Fin 2000) (q : Fin 64) :
    matmul (F := Ideal) dot_S2000x64_S64x64_S2000x64_1_0_0_1_n_n none y0 y1 (constant (F := Ideal) S2000x64 .f32 0x00000000#32) (ix2 p q)
      = ∑ k : Fin 64, y0 (ix2 p k) * y1 (ix2 k q) := by
  refine (Ideal.matmul_constant_zero_apply dot_S2000x64_S64x64_S2000x64_1_0_0_1_n_n none y0 y1 (ix2 p q)).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact lhs_rowDense_0 _ _
    | ⟨1, _⟩ => exact (lhs_rowDense_1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (rhs_rowDense_0 _ _).trans hk
    | ⟨1, _⟩ => exact rhs_rowDense_1 _ _)
  rw [el, er]

/-- THE BODY'S FIRST STORED VALUE AT `(p, q)`: the row `p` of the block scaled by its in-degree norm, through the dense
    map, plus the bias, rectified. -/
theorem k1_pay1_apply (x0 : Vec Ideal S2000x64 .f32) (x1 : Vec Ideal S2000x1 .f32) (x3 : Vec Ideal S64x64 .bf16) (x4 : Vec Ideal S1x64 .f32)
    (p : Fin 2000) (q : Fin 64) :
    k1_pay1 (F := Ideal) x0 x1 x3 x4 (ix2 p q)
      = max ((∑ k : Fin 64, (x0 (ix2 p k) * x1 (ix2 p 0)) * x3 (ix2 k q)) + x4 (ix2 0 q)) 0 := by
  unfold k1_pay1
  simp only [shapeCast_self]
  show max (matmul (F := Ideal) dot_S2000x64_S64x64_S2000x64_1_0_0_1_n_n none
        (truncf .bf16 (mulf x0 (broadcastTo S2000x64 x1 broadcasts_S2000x1_S2000x64)) bitsLt_bf16_f32) x3
        (constant (F := Ideal) S2000x64 .f32 0x00000000#32) (ix2 p q)
      + broadcastTo S2000x64 x4 broadcasts_S1x64_S2000x64 (ix2 p q)) (Ideal.ofBits .f32 0x00000000#32) = _
  rw [rowDense_apply, broadcastTo_1b_ab_apply, Ideal.ofBits_zero_f32]
  refine congrArg (fun s => max (s + x4 (ix2 0 q)) 0) (Finset.sum_congr rfl fun k _ => ?_)
  show x0 (ix2 p k) * broadcastTo S2000x64 x1 broadcasts_S2000x1_S2000x64 (ix2 p k) * x3 (ix2 k q) = _
  rw [broadcastTo_a1_ab_apply]

/-- THE BODY'S SECOND STORED VALUE AT `(p, q)`: the first, times the row's out-degree norm. -/
theorem k1_pay2_apply (x0 : Vec Ideal S2000x64 .f32) (x1 : Vec Ideal S2000x1 .f32) (x3 : Vec Ideal S64x64 .bf16) (x4 : Vec Ideal S1x64 .f32)
    (x2 : Vec Ideal S2000x1 .f32) (p : Fin 2000) (q : Fin 64) :
    k1_pay2 (F := Ideal) x0 x1 x3 x4 x2 (ix2 p q)
      = max ((∑ k : Fin 64, (x0 (ix2 p k) * x1 (ix2 p 0)) * x3 (ix2 k q)) + x4 (ix2 0 q)) 0 * x2 (ix2 p 0) := by
  unfold k1_pay2
  simp only [shapeCast_self]
  show k1_pay1 (F := Ideal) x0 x1 x3 x4 (ix2 p q) * broadcastTo S2000x64 x2 broadcasts_S2000x1_S2000x64 (ix2 p q) = _
  rw [k1_pay1_apply, broadcastTo_a1_ab_apply]

/-- One entry of the layer from a block's entries: if row `p` of the blocks holds row `n` of the arrays, the body's first
    stored value at `(p, q)` is the layer's output at `(n, q)`. -/
theorem k1_pay1_eq_layer (x0 : Vec Ideal S2000x64 .f32) (x1 : Vec Ideal S2000x1 .f32) (x3 : Vec Ideal S64x64 .bf16) (x4 : Vec Ideal S1x64 .f32)
    (A0 : S100000x64.Idx → EReal) (A1 : S100000x1.Idx → EReal) (A3 : S64x64.Idx → EReal) (A4 : S1x64.Idx → EReal)
    (p : Fin 2000) (q : Fin 64) (n : Fin 100000)
    (h0 : ∀ k : Fin 64, x0 (ix2 p k) = A0 (ix2 n k)) (h1 : x1 (ix2 p 0) = A1 (ix2 n 0))
    (h3 : ∀ k : Fin 64, x3 (ix2 k q) = A3 (ix2 k q)) (h4 : x4 (ix2 0 q) = A4 (ix2 0 q)) :
    k1_pay1 (F := Ideal) x0 x1 x3 x4 (ix2 p q) = Cert.Spec.layer A0 A1 A3 A4 (ix2 n q) := by
  refine (k1_pay1_apply x0 x1 x3 x4 p q).trans ?_
  show _ = max ((∑ k : Fin 64, (A0 (ix2 n k) * A1 (ix2 n 0)) * A3 (ix2 k q)) + A4 (ix2 0 q)) 0
  rw [h4, h1]
  refine congrArg (fun s => max (s + A4 (ix2 0 q)) 0) (Finset.sum_congr rfl fun k _ => ?_)
  rw [h0 k, h3 k]

/-- The same for the second stored value and the scaled output. -/
theorem k1_pay2_eq_layerScaled (x0 : Vec Ideal S2000x64 .f32) (x1 : Vec Ideal S2000x1 .f32) (x3 : Vec Ideal S64x64 .bf16) (x4 : Vec Ideal S1x64 .f32)
    (x2 : Vec Ideal S2000x1 .f32)
    (A0 : S100000x64.Idx → EReal) (A1 : S100000x1.Idx → EReal) (A3 : S64x64.Idx → EReal) (A4 : S1x64.Idx → EReal) (A2 : S100000x1.Idx → EReal)
    (p : Fin 2000) (q : Fin 64) (n : Fin 100000)
    (h0 : ∀ k : Fin 64, x0 (ix2 p k) = A0 (ix2 n k)) (h1 : x1 (ix2 p 0) = A1 (ix2 n 0))
    (h3 : ∀ k : Fin 64, x3 (ix2 k q) = A3 (ix2 k q)) (h4 : x4 (ix2 0 q) = A4 (ix2 0 q)) (h2 : x2 (ix2 p 0) = A2 (ix2 n 0)) :
    k1_pay2 (F := Ideal) x0 x1 x3 x4 x2 (ix2 p q) = Cert.Spec.layerScaled A0 A1 A3 A4 A2 (ix2 n q) := by
  refine (k1_pay2_apply x0 x1 x3 x4 x2 p q).trans ?_
  show _ = max ((∑ k : Fin 64, (A0 (ix2 n k) * A1 (ix2 n 0)) * A3 (ix2 k q)) + A4 (ix2 0 q)) 0 * A2 (ix2 n 0)
  rw [h4, h1, h2]
  refine congrArg (fun s => max (s + A4 (ix2 0 q)) 0 * A2 (ix2 n 0)) (Finset.sum_congr rfl fun k _ => ?_)
  rw [h0 k, h3 k]

/-! ## The blocks of the arrays

Point `t` of the 50 works on rows `2000 t … 2000 t + 1999`: the aggregate's, the two norms' and the two outputs' block
`t` are those rows; the weights and the bias come whole at every point. -/

theorem hz : (![0, 0] : Fin 2 → Nat) = fun _ => 0 := funext fun a => by fin_cases a <;> rfl

/-- The block indices, decided over the 50 points: the row windows' block at point `t` is block `t` along the rows, the
    weights' and the bias' is the whole array. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of the aggregate's block `t` is row `2000 t + p` of the aggregate. -/
theorem aggBlock_apply (c : Dev nD) (t : Fin cfg1.N) (p : Fin 2000) (k : Fin 64) (n : Fin 100000)
    (hn : n.val = t.val * 2000 + p.val) :
    (iblk1 (F := Ideal) V c 0 t : Vec Ideal S2000x64 .f32) (ix2 p k) = (V c main_v33 : S100000x64.Idx → EReal) (ix2 n k) := by
  obtain ⟨e0, e1, -⟩ := blockIndex t
  unfold iblk1
  rw [View.read_apply]
  show V c main_v33 _ = V c main_v33 _
  congr 1
  funext a; apply Fin.ext
  match a with
  | ⟨0, _⟩ => show win1_0.index t (0 : Fin 2) * 2000 + 1 * p.val = n.val; rw [e0, hn]; omega
  | ⟨1, _⟩ => show win1_0.index t (1 : Fin 2) * 64 + 1 * k.val = k.val; rw [e1]; omega

/-- Entry `p` of the in-degree norm's block `t` is entry `2000 t + p` of the norm. -/
theorem innBlock_apply (c : Dev nD) (t : Fin cfg1.N) (p : Fin 2000) (n : Fin 100000)
    (hn : n.val = t.val * 2000 + p.val) :
    (iblk1 (F := Ideal) V c 1 t : Vec Ideal S2000x1 .f32) (ix2 p 0) = (V c main_v21 : S100000x1.Idx → EReal) (ix2 n 0) := by
  obtain ⟨-, -, e0, e1, -⟩ := blockIndex t
  unfold iblk1
  rw [View.read_apply]
  show V c main_v21 _ = V c main_v21 _
  congr 1
  funext a; apply Fin.ext
  match a with
  | ⟨0, _⟩ => show win1_1.index t (0 : Fin 2) * 2000 + 1 * p.val = n.val; rw [e0, hn]; omega
  | ⟨1, _⟩ => show win1_1.index t (1 : Fin 2) * 1 + 1 * 0 = 0; rw [e1]

/-- Entry `p` of the out-degree norm's block `t` is entry `2000 t + p` of the norm. -/
theorem onBlock_apply (c : Dev nD) (t : Fin cfg1.N) (p : Fin 2000) (n : Fin 100000)
    (hn : n.val = t.val * 2000 + p.val) :
    (iblk1 (F := Ideal) V c 2 t : Vec Ideal S2000x1 .f32) (ix2 p 0) = (V c main_v20 : S100000x1.Idx → EReal) (ix2 n 0) := by
  obtain ⟨-, -, -, -, e0, e1, -⟩ := blockIndex t
  unfold iblk1
  rw [View.read_apply]
  show V c main_v20 _ = V c main_v20 _
  congr 1
  funext a; apply Fin.ext
  match a with
  | ⟨0, _⟩ => show win1_2.index t (0 : Fin 2) * 2000 + 1 * p.val = n.val; rw [e0, hn]; omega
  | ⟨1, _⟩ => show win1_2.index t (1 : Fin 2) * 1 + 1 * 0 = 0; rw [e1]

/-- The weights' block at any point is the weights. -/
theorem weightBlock_apply (c : Dev nD) (t : Fin cfg1.N) (k : Fin 64) (q : Fin 64) :
    (iblk1 (F := Ideal) V c 3 t : Vec Ideal S64x64 .bf16) (ix2 k q) = (V c main_v36 : S64x64.Idx → EReal) (ix2 k q) := by
  obtain ⟨-, -, -, -, -, -, e0, e1, -⟩ := blockIndex t
  unfold iblk1
  rw [View.read_apply]
  show V c main_v36 _ = V c main_v36 _
  congr 1
  funext a; apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias' block at any point is the bias. -/
theorem biasBlock_apply (c : Dev nD) (t : Fin cfg1.N) (q : Fin 64) :
    (iblk1 (F := Ideal) V c 4 t : Vec Ideal S1x64 .f32) (ix2 0 q) = (V c main_v39 : S1x64.Idx → EReal) (ix2 0 q) := by
  obtain ⟨-, -, -, -, -, -, -, -, e0, e1, -⟩ := blockIndex t
  unfold iblk1
  rw [View.read_apply]
  show V c main_v39 _ = V c main_v39 _
  congr 1
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-! ## What a point writes back, and the arrays after the run -/

/-- THE FIRST OUTPUT'S BLOCK AT POINT `t`, entry by entry: the entry of the block at `j` is the layer's output at the
    array index `i` in row `2000 t + j 0`, feature `j 1`. -/
theorem layer_block (c : Dev nD) (t : Fin cfg1.N) (j : S2000x64.Idx) (i : S100000x64.Idx)
    (hi0 : (i 0).val = t.val * 2000 + (j 0).val) (hi1 : (i 1).val = (j 1).val) :
    k1_pay1 (F := Ideal) (iblk1 V c 0 t) (iblk1 V c 1 t) (iblk1 V c 3 t) (iblk1 V c 4 t) j
      = Cert.Spec.layer (V c main_v33) (V c main_v21) (V c main_v36) (V c main_v39) i := by
  obtain ⟨p, q, rfl⟩ : ∃ (p : Fin 2000) (q : Fin 64), j = ix2 p q := ⟨j 0, j 1, eq_ix2 j⟩
  obtain ⟨n, d, rfl⟩ : ∃ (n : Fin 100000) (d : Fin 64), i = ix2 n d := ⟨i 0, i 1, eq_ix2 i⟩
  have hn : n.val = t.val * 2000 + p.val := hi0
  obtain rfl : d = q := Fin.ext hi1
  exact k1_pay1_eq_layer (iblk1 V c 0 t) (iblk1 V c 1 t) (iblk1 V c 3 t) (iblk1 V c 4 t)
    (V c main_v33) (V c main_v21) (V c main_v36) (V c main_v39) p d n
    (fun k => aggBlock_apply V c t p k n hn) (innBlock_apply V c t p n hn)
    (fun k => weightBlock_apply V c t k d) (biasBlock_apply V c t d)

/-- THE SECOND OUTPUT'S BLOCK AT POINT `t`, entry by entry: the same entry times the row's out-degree norm. -/
theorem layerScaled_block (c : Dev nD) (t : Fin cfg1.N) (j : S2000x64.Idx) (i : S100000x64.Idx)
    (hi0 : (i 0).val = t.val * 2000 + (j 0).val) (hi1 : (i 1).val = (j 1).val) :
    k1_pay2 (F := Ideal) (iblk1 V c 0 t) (iblk1 V c 1 t) (iblk1 V c 3 t) (iblk1 V c 4 t) (iblk1 V c 2 t) j
      = Cert.Spec.layerScaled (V c main_v33) (V c main_v21) (V c main_v36) (V c main_v39) (V c main_v20) i := by
  obtain ⟨p, q, rfl⟩ : ∃ (p : Fin 2000) (q : Fin 64), j = ix2 p q := ⟨j 0, j 1, eq_ix2 j⟩
  obtain ⟨n, d, rfl⟩ : ∃ (n : Fin 100000) (d : Fin 64), i = ix2 n d := ⟨i 0, i 1, eq_ix2 i⟩
  have hn : n.val = t.val * 2000 + p.val := hi0
  obtain rfl : d = q := Fin.ext hi1
  exact k1_pay2_eq_layerScaled (iblk1 V c 0 t) (iblk1 V c 1 t) (iblk1 V c 3 t) (iblk1 V c 4 t) (iblk1 V c 2 t)
    (V c main_v33) (V c main_v21) (V c main_v36) (V c main_v39) (V c main_v20) p d n
    (fun k => aggBlock_apply V c t p k n hn) (innBlock_apply V c t p n hn)
    (fun k => weightBlock_apply V c t k d) (biasBlock_apply V c t d) (onBlock_apply V c t p n hn)

/-- WHAT POINT `t` WRITES BACK to the first output is block `t` of the layer's output of the arrays as the region finds them. -/
theorem flushed_h (c : Dev nD) (t : Fin cfg1.N) :
    (dat1 (F := Ideal) V c).flushed 5 t
      = ((cfg1.win 5).blk t).view.read (Elt Ideal) (Cert.Spec.layer (V c main_v33) (V c main_v21) (V c main_v36) (V c main_v39)) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, -, -, -, -, -, -, e0, e1, -⟩ := blockIndex t
  funext j
  refine layer_block V c t j (((cfg1.win 5).blk t).view.emb j) ?_ ?_
  · show win1_5.index t (0 : Fin 2) * 2000 + 1 * (j 0).val = t.val * 2000 + (j 0).val
    rw [e0]; omega
  · show win1_5.index t (1 : Fin 2) * 64 + 1 * (j 1).val = (j 1).val
    rw [e1]; omega

/-- WHAT POINT `t` WRITES BACK to the second output is block `t` of the scaled output. -/
theorem flushed_hs (c : Dev nD) (t : Fin cfg1.N) :
    (dat1 (F := Ideal) V c).flushed 6 t
      = ((cfg1.win 6).blk t).view.read (Elt Ideal) (Cert.Spec.layerScaled (V c main_v33) (V c main_v21) (V c main_v36) (V c main_v39) (V c main_v20)) := by
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, -, -, -, -, -, -, -, -, e0, e1⟩ := blockIndex t
  funext j
  refine layerScaled_block V c t j (((cfg1.win 6).blk t).view.emb j) ?_ ?_
  · show win1_6.index t (0 : Fin 2) * 2000 + 1 * (j 0).val = t.val * 2000 + (j 0).val
    rw [e0]; omega
  · show win1_6.index t (1 : Fin 2) * 64 + 1 * (j 1).val = (j 1).val
    rw [e1]; omega

/-- An index of the first output is in point `t`'s block iff each coordinate is in the block's range on its axis. -/
theorem mem_block_h (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v40_0).slice (win1_5.rect t)).set ↔ _
  rw [View.set_slice_whole, Rect.mem_set_unit]
  exact Iff.rfl

/-- The same for the second output. -/
theorem mem_block_hs (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v40_1).slice (win1_6.rect t)).set ↔ _
  rw [View.set_slice_whole, Rect.mem_set_unit]
  exact Iff.rfl

/-- The point that works on row `r` is `r / 2000`. -/
def pointOf (i : S100000x64.Idx) : Fin cfg1.N := ⟨(i 0).val / 2000, by
  have hi0 : (i 0).val < 100000 := (i 0).isLt
  rw [show cfg1.N = 50 from N_1]; omega⟩

/-- THE 50 BLOCKS TILE THE FIRST OUTPUT: row `r` is in the block of point `r / 2000`. -/
theorem cover_h (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨-, -, -, -, -, -, -, -, -, -, e0, e1, -⟩ := blockIndex (pointOf i)
  have ht : (pointOf i).val = (i 0).val / 2000 := rfl
  refine ⟨pointOf i, flush1_5 _, ?_⟩
  rw [mem_block_h]
  intro a
  match a with
  | ⟨0, _⟩ => show win1_5.index (pointOf i) (0 : Fin 2) * 2000 ≤ (i 0).val ∧ (i 0).val < win1_5.index (pointOf i) (0 : Fin 2) * 2000 + 2000; rw [e0, ht]; omega
  | ⟨1, _⟩ => show win1_5.index (pointOf i) (1 : Fin 2) * 64 ≤ (i 1).val ∧ (i 1).val < win1_5.index (pointOf i) (1 : Fin 2) * 64 + 64; rw [e1]; omega

/-- The same for the second output. -/
theorem cover_hs (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨-, -, -, -, -, -, -, -, -, -, -, -, e0, e1⟩ := blockIndex (pointOf i)
  have ht : (pointOf i).val = (i 0).val / 2000 := rfl
  refine ⟨pointOf i, flush1_6 _, ?_⟩
  rw [mem_block_hs]
  intro a
  match a with
  | ⟨0, _⟩ => show win1_6.index (pointOf i) (0 : Fin 2) * 2000 ≤ (i 0).val ∧ (i 0).val < win1_6.index (pointOf i) (0 : Fin 2) * 2000 + 2000; rw [e0, ht]; omega
  | ⟨1, _⟩ => show win1_6.index (pointOf i) (1 : Fin 2) * 64 ≤ (i 1).val ∧ (i 1).val < win1_6.index (pointOf i) (1 : Fin 2) * 64 + 64; rw [e1]; omega

/-- Region 1 leaves in its first output array the layer's output of the arrays it is entered with. -/
theorem final_h (c : Dev nD) :
    (dat1 (F := Ideal) V c).arrAt 5 cfg1.N = Cert.Spec.layer (V c main_v33) (V c main_v21) (V c main_v36) (V c main_v39) :=
  (dat1 (F := Ideal) V c).arrAt_eq_of_cover 5 (Cert.Spec.layer (V c main_v33) (V c main_v21) (V c main_v36) (V c main_v39))
    (fun t _ => flushed_h V c t) cover_h

/-- Region 1 leaves in its second output array the same rows scaled by the out-degree norm. -/
theorem final_hs (c : Dev nD) :
    (dat1 (F := Ideal) V c).arrAt 6 cfg1.N = Cert.Spec.layerScaled (V c main_v33) (V c main_v21) (V c main_v36) (V c main_v39) (V c main_v20) :=
  (dat1 (F := Ideal) V c).arrAt_eq_of_cover 6 (Cert.Spec.layerScaled (V c main_v33) (V c main_v21) (V c main_v36) (V c main_v39) (V c main_v20))
    (fun t _ => flushed_hs V c t) cover_hs

end Cert.KernelIdeal.Reg1

end
-- ==== Proof.KReg2.lean ====
import proofs.«427412_j88940182766121_1_alg».proof.Proof.Gen.KernelIdeal.Frame
import proofs.«427412_j88940182766121_1_alg».proof.Proof.Spec
import proofs.«427412_j88940182766121_1_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic

The second layer's body is the first layer's, operation by operation: the same two stored values of its blocks. -/

/-- The second layer's first stored value is the first layer's, of the same blocks. -/
theorem k2_pay1_eq (x0 : Vec Ideal S2000x64 .f32) (x1 : Vec Ideal S2000x1 .f32) (x3 : Vec Ideal S64x64 .bf16) (x4 : Vec Ideal S1x64 .f32) :
    k2_pay1 (F := Ideal) x0 x1 x3 x4 = k1_pay1 (F := Ideal) x0 x1 x3 x4 := rfl

/-- The second layer's second stored value is the first layer's, of the same blocks. -/
theorem k2_pay2_eq (x0 : Vec Ideal S2000x64 .f32) (x1 : Vec Ideal S2000x1 .f32) (x3 : Vec Ideal S64x64 .bf16) (x4 : Vec Ideal S1x64 .f32)
    (x2 : Vec Ideal S2000x1 .f32) :
    k2_pay2 (F := Ideal) x0 x1 x3 x4 x2 = k1_pay2 (F := Ideal) x0 x1 x3 x4 x2 := rfl

/-! ## The blocks of the arrays

Point `t` of the 50 works on rows `2000 t … 2000 t + 1999`: the aggregate's, the two norms' and the two outputs' block
`t` are those rows; the weights and the bias come whole at every point. -/

theorem hz : (![0, 0] : Fin 2 → Nat) = fun _ => 0 := funext fun a => by fin_cases a <;> rfl

/-- The block indices, decided over the 50 points: the row windows' block at point `t` is block `t` along the rows, the
    weights' and the bias' is the whole array. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of the aggregate's block `t` is row `2000 t + p` of the aggregate. -/
theorem aggBlock_apply (c : Dev nD) (t : Fin cfg2.N) (p : Fin 2000) (k : Fin 64) (n : Fin 100000)
    (hn : n.val = t.val * 2000 + p.val) :
    (iblk2 (F := Ideal) V c 0 t : Vec Ideal S2000x64 .f32) (ix2 p k) = (V c main_v50 : S100000x64.Idx → EReal) (ix2 n k) := by
  obtain ⟨e0, e1, -⟩ := blockIndex t
  unfold iblk2
  rw [View.read_apply]
  show V c main_v50 _ = V c main_v50 _
  congr 1
  funext a; apply Fin.ext
  match a with
  | ⟨0, _⟩ => show win2_0.index t (0 : Fin 2) * 2000 + 1 * p.val = n.val; rw [e0, hn]; omega
  | ⟨1, _⟩ => show win2_0.index t (1 : Fin 2) * 64 + 1 * k.val = k.val; rw [e1]; omega

/-- Entry `p` of the in-degree norm's block `t` is entry `2000 t + p` of the norm. -/
theorem innBlock_apply (c : Dev nD) (t : Fin cfg2.N) (p : Fin 2000) (n : Fin 100000)
    (hn : n.val = t.val * 2000 + p.val) :
    (iblk2 (F := Ideal) V c 1 t : Vec Ideal S2000x1 .f32) (ix2 p 0) = (V c main_v21 : S100000x1.Idx → EReal) (ix2 n 0) := by
  obtain ⟨-, -, e0, e1, -⟩ := blockIndex t
  unfold iblk2
  rw [View.read_apply]
  show V c main_v21 _ = V c main_v21 _
  congr 1
  funext a; apply Fin.ext
  match a with
  | ⟨0, _⟩ => show win2_1.index t (0 : Fin 2) * 2000 + 1 * p.val = n.val; rw [e0, hn]; omega
  | ⟨1, _⟩ => show win2_1.index t (1 : Fin 2) * 1 + 1 * 0 = 0; rw [e1]

/-- Entry `p` of the out-degree norm's block `t` is entry `2000 t + p` of the norm. -/
theorem onBlock_apply (c : Dev nD) (t : Fin cfg2.N) (p : Fin 2000) (n : Fin 100000)
    (hn : n.val = t.val * 2000 + p.val) :
    (iblk2 (F := Ideal) V c 2 t : Vec Ideal S2000x1 .f32) (ix2 p 0) = (V c main_v20 : S100000x1.Idx → EReal) (ix2 n 0) := by
  obtain ⟨-, -, -, -, e0, e1, -⟩ := blockIndex t
  unfold iblk2
  rw [View.read_apply]
  show V c main_v20 _ = V c main_v20 _
  congr 1
  funext a; apply Fin.ext
  match a with
  | ⟨0, _⟩ => show win2_2.index t (0 : Fin 2) * 2000 + 1 * p.val = n.val; rw [e0, hn]; omega
  | ⟨1, _⟩ => show win2_2.index t (1 : Fin 2) * 1 + 1 * 0 = 0; rw [e1]

/-- The weights' block at any point is the weights. -/
theorem weightBlock_apply (c : Dev nD) (t : Fin cfg2.N) (k : Fin 64) (q : Fin 64) :
    (iblk2 (F := Ideal) V c 3 t : Vec Ideal S64x64 .bf16) (ix2 k q) = (V c main_v53 : S64x64.Idx → EReal) (ix2 k q) := by
  obtain ⟨-, -, -, -, -, -, e0, e1, -⟩ := blockIndex t
  unfold iblk2
  rw [View.read_apply]
  show V c main_v53 _ = V c main_v53 _
  congr 1
  funext a; apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The bias' block at any point is the bias. -/
theorem biasBlock_apply (c : Dev nD) (t : Fin cfg2.N) (q : Fin 64) :
    (iblk2 (F := Ideal) V c 4 t : Vec Ideal S1x64 .f32) (ix2 0 q) = (V c main_v56 : S1x64.Idx → EReal) (ix2 0 q) := by
  obtain ⟨-, -, -, -, -, -, -, -, e0, e1, -⟩ := blockIndex t
  unfold iblk2
  rw [View.read_apply]
  show V c main_v56 _ = V c main_v56 _
  congr 1
  funext a; apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

/-! ## What a point writes back, and the arrays after the run -/

/-- THE FIRST OUTPUT'S BLOCK AT POINT `t`, entry by entry: the entry of the block at `j` is the layer's output at the
    array index `i` in row `2000 t + j 0`, feature `j 1`. -/
theorem layer_block (c : Dev nD) (t : Fin cfg2.N) (j : S2000x64.Idx) (i : S100000x64.Idx)
    (hi0 : (i 0).val = t.val * 2000 + (j 0).val) (hi1 : (i 1).val = (j 1).val) :
    k2_pay1 (F := Ideal) (iblk2 V c 0 t) (iblk2 V c 1 t) (iblk2 V c 3 t) (iblk2 V c 4 t) j
      = Cert.Spec.layer (V c main_v50) (V c main_v21) (V c main_v53) (V c main_v56) i := by
  obtain ⟨p, q, rfl⟩ : ∃ (p : Fin 2000) (q : Fin 64), j = ix2 p q := ⟨j 0, j 1, eq_ix2 j⟩
  obtain ⟨n, d, rfl⟩ : ∃ (n : Fin 100000) (d : Fin 64), i = ix2 n d := ⟨i 0, i 1, eq_ix2 i⟩
  have hn : n.val = t.val * 2000 + p.val := hi0
  obtain rfl : d = q := Fin.ext hi1
  refine (congrFun (k2_pay1_eq (iblk2 V c 0 t) (iblk2 V c 1 t) (iblk2 V c 3 t) (iblk2 V c 4 t)) (ix2 p d)).trans ?_
  exact Reg1.k1_pay1_eq_layer (iblk2 V c 0 t) (iblk2 V c 1 t) (iblk2 V c 3 t) (iblk2 V c 4 t)
    (V c main_v50) (V c main_v21) (V c main_v53) (V c main_v56) p d n
    (fun k => aggBlock_apply V c t p k n hn) (innBlock_apply V c t p n hn)
    (fun k => weightBlock_apply V c t k d) (biasBlock_apply V c t d)

/-- THE SECOND OUTPUT'S BLOCK AT POINT `t`, entry by entry: the same entry times the row's out-degree norm. -/
theorem layerScaled_block (c : Dev nD) (t : Fin cfg2.N) (j : S2000x64.Idx) (i : S100000x64.Idx)
    (hi0 : (i 0).val = t.val * 2000 + (j 0).val) (hi1 : (i 1).val = (j 1).val) :
    k2_pay2 (F := Ideal) (iblk2 V c 0 t) (iblk2 V c 1 t) (iblk2 V c 3 t) (iblk2 V c 4 t) (iblk2 V c 2 t) j
      = Cert.Spec.layerScaled (V c main_v50) (V c main_v21) (V c main_v53) (V c main_v56) (V c main_v20) i := by
  obtain ⟨p, q, rfl⟩ : ∃ (p : Fin 2000) (q : Fin 64), j = ix2 p q := ⟨j 0, j 1, eq_ix2 j⟩
  obtain ⟨n, d, rfl⟩ : ∃ (n : Fin 100000) (d : Fin 64), i = ix2 n d := ⟨i 0, i 1, eq_ix2 i⟩
  have hn : n.val = t.val * 2000 + p.val := hi0
  obtain rfl : d = q := Fin.ext hi1
  refine (congrFun (k2_pay2_eq (iblk2 V c 0 t) (iblk2 V c 1 t) (iblk2 V c 3 t) (iblk2 V c 4 t) (iblk2 V c 2 t)) (ix2 p d)).trans ?_
  exact Reg1.k1_pay2_eq_layerScaled (iblk2 V c 0 t) (iblk2 V c 1 t) (iblk2 V c 3 t) (iblk2 V c 4 t) (iblk2 V c 2 t)
    (V c main_v50) (V c main_v21) (V c main_v53) (V c main_v56) (V c main_v20) p d n
    (fun k => aggBlock_apply V c t p k n hn) (innBlock_apply V c t p n hn)
    (fun k => weightBlock_apply V c t k d) (biasBlock_apply V c t d) (onBlock_apply V c t p n hn)

/-- WHAT POINT `t` WRITES BACK to the first output is block `t` of the layer's output of the arrays as the region finds them. -/
theorem flushed_h (c : Dev nD) (t : Fin cfg2.N) :
    (dat2 (F := Ideal) V c).flushed 5 t
      = ((cfg2.win 5).blk t).view.read (Elt Ideal) (Cert.Spec.layer (V c main_v50) (V c main_v21) (V c main_v53) (V c main_v56)) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, -, -, -, -, -, -, e0, e1, -⟩ := blockIndex t
  funext j
  refine layer_block V c t j (((cfg2.win 5).blk t).view.emb j) ?_ ?_
  · show win2_5.index t (0 : Fin 2) * 2000 + 1 * (j 0).val = t.val * 2000 + (j 0).val
    rw [e0]; omega
  · show win2_5.index t (1 : Fin 2) * 64 + 1 * (j 1).val = (j 1).val
    rw [e1]; omega

/-- WHAT POINT `t` WRITES BACK to the second output is block `t` of the scaled output. -/
theorem flushed_hs (c : Dev nD) (t : Fin cfg2.N) :
    (dat2 (F := Ideal) V c).flushed 6 t
      = ((cfg2.win 6).blk t).view.read (Elt Ideal) (Cert.Spec.layerScaled (V c main_v50) (V c main_v21) (V c main_v53) (V c main_v56) (V c main_v20)) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, -, -, -, -, -, -, -, -, e0, e1⟩ := blockIndex t
  funext j
  refine layerScaled_block V c t j (((cfg2.win 6).blk t).view.emb j) ?_ ?_
  · show win2_6.index t (0 : Fin 2) * 2000 + 1 * (j 0).val = t.val * 2000 + (j 0).val
    rw [e0]; omega
  · show win2_6.index t (1 : Fin 2) * 64 + 1 * (j 1).val = (j 1).val
    rw [e1]; omega

/-- An index of the first output is in point `t`'s block iff each coordinate is in the block's range on its axis. -/
theorem mem_block_h (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v57_0).slice (win2_5.rect t)).set ↔ _
  rw [View.set_slice_whole, Rect.mem_set_unit]
  exact Iff.rfl

/-- The same for the second output. -/
theorem mem_block_hs (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v57_1).slice (win2_6.rect t)).set ↔ _
  rw [View.set_slice_whole, Rect.mem_set_unit]
  exact Iff.rfl

/-- The point that works on row `r` is `r / 2000`. -/
def pointOf (i : S100000x64.Idx) : Fin cfg2.N := ⟨(i 0).val / 2000, by
  have hi0 : (i 0).val < 100000 := (i 0).isLt
  rw [show cfg2.N = 50 from N_2]; omega⟩

/-- THE 50 BLOCKS TILE THE FIRST OUTPUT: row `r` is in the block of point `r / 2000`. -/
theorem cover_h (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨-, -, -, -, -, -, -, -, -, -, e0, e1, -⟩ := blockIndex (pointOf i)
  have ht : (pointOf i).val = (i 0).val / 2000 := rfl
  refine ⟨pointOf i, flush2_5 _, ?_⟩
  rw [mem_block_h]
  intro a
  match a with
  | ⟨0, _⟩ => show win2_5.index (pointOf i) (0 : Fin 2) * 2000 ≤ (i 0).val ∧ (i 0).val < win2_5.index (pointOf i) (0 : Fin 2) * 2000 + 2000; rw [e0, ht]; omega
  | ⟨1, _⟩ => show win2_5.index (pointOf i) (1 : Fin 2) * 64 ≤ (i 1).val ∧ (i 1).val < win2_5.index (pointOf i) (1 : Fin 2) * 64 + 64; rw [e1]; omega

/-- The same for the second output. -/
theorem cover_hs (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨-, -, -, -, -, -, -, -, -, -, -, -, e0, e1⟩ := blockIndex (pointOf i)
  have ht : (pointOf i).val = (i 0).val / 2000 := rfl
  refine ⟨pointOf i, flush2_6 _, ?_⟩
  rw [mem_block_hs]
  intro a
  match a with
  | ⟨0, _⟩ => show win2_6.index (pointOf i) (0 : Fin 2) * 2000 ≤ (i 0).val ∧ (i 0).val < win2_6.index (pointOf i) (0 : Fin 2) * 2000 + 2000; rw [e0, ht]; omega
  | ⟨1, _⟩ => show win2_6.index (pointOf i) (1 : Fin 2) * 64 ≤ (i 1).val ∧ (i 1).val < win2_6.index (pointOf i) (1 : Fin 2) * 64 + 64; rw [e1]; omega

/-- Region 2 leaves in its first output array the layer's output of the arrays it is entered with. -/
theorem final_h (c : Dev nD) :
    (dat2 (F := Ideal) V c).arrAt 5 cfg2.N = Cert.Spec.layer (V c main_v50) (V c main_v21) (V c main_v53) (V c main_v56) :=
  (dat2 (F := Ideal) V c).arrAt_eq_of_cover 5 (Cert.Spec.layer (V c main_v50) (V c main_v21) (V c main_v53) (V c main_v56))
    (fun t _ => flushed_h V c t) cover_h

/-- Region 2 leaves in its second output array the same rows scaled by the out-degree norm. -/
theorem final_hs (c : Dev nD) :
    (dat2 (F := Ideal) V c).arrAt 6 cfg2.N = Cert.Spec.layerScaled (V c main_v50) (V c main_v21) (V c main_v53) (V c main_v56) (V c main_v20) :=
  (dat2 (F := Ideal) V c).arrAt_eq_of_cover 6 (Cert.Spec.layerScaled (V c main_v50) (V c main_v21) (V c main_v53) (V c main_v56) (V c main_v20))
    (fun t _ => flushed_hs V c t) cover_hs

end Cert.KernelIdeal.Reg2

end
-- ==== Proof.KReg3.lean ====
import proofs.«427412_j88940182766121_1_alg».proof.Proof.Gen.KernelIdeal.Frame
import proofs.«427412_j88940182766121_1_alg».proof.Proof.Spec
import proofs.«427412_j88940182766121_1_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic

The last layer's body stores one value, the first layer's first, operation by operation. -/

/-- The last layer's stored value is the first layer's first, of the same blocks. -/
theorem k3_pay1_eq (x0 : Vec Ideal S2000x64 .f32) (x1 : Vec Ideal S2000x1 .f32) (x2 : Vec Ideal S64x64 .bf16) (x3 : Vec Ideal S1x64 .f32) :
    k3_pay1 (F := Ideal) x0 x1 x2 x3 = k1_pay1 (F := Ideal) x0 x1 x2 x3 := rfl

/-! ## The blocks of the arrays

Point `t` of the 50 works on rows `2000 t … 2000 t + 1999`: the aggregate's, the in-degree norm's and the output's block
`t` are those rows; the weights and the bias come whole at every point. -/

theorem hz : (![0, 0] : Fin 2 → Nat) = fun _ => 0 := funext fun a => by fin_cases a <;> rfl

/-- The block indices, decided over the 50 points: the row windows' block at point `t` is block `t` along the rows, the
    weights' and the bias' is the whole array. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of the aggregate's block `t` is row `2000 t + p` of the aggregate. -/
theorem aggBlock_apply (c : Dev nD) (t : Fin cfg3.N) (p : Fin 2000) (k : Fin 64) (n : Fin 100000)
    (hn : n.val = t.val * 2000 + p.val) :
    (iblk3 (F := Ideal) V c 0 t : Vec Ideal S2000x64 .f32) (ix2 p k) = (V c main_v67 : S100000x64.Idx → EReal) (ix2 n k) := by
  obtain ⟨e0, e1, -⟩ := blockIndex t
  unfold iblk3
  rw [View.read_apply]
  show V c main_v67 _ = V c main_v67 _
  congr 1
  funext a; apply Fin.ext
  match a with
  | ⟨0, _⟩ => show win3_0.index t (0 : Fin 2) * 2000 + 1 * p.val = n.val; rw [e0, hn]; omega
  | ⟨1, _⟩ => show win3_0.index t (1 : Fin 2) * 64 + 1 * k.val = k.val; rw [e1]; omega

/-- Entry `p` of the in-degree norm's block `t` is entry `2000 t + p` of the norm. -/
theorem innBlock_apply (c : Dev nD) (t : Fin cfg3.N) (p : Fin 2000) (n : Fin 100000)
    (hn : n.val = t.val * 2000 + p.val) :
    (iblk3 (F := Ideal) V c 1 t : Vec Ideal S2000x1 .f32) (ix2 p 0) = (V c main_v21 : S100000x1.Idx → EReal) (ix2 n 0) := by
  obtain ⟨-, -, e0, e1, -⟩ := blockIndex t
  unfold iblk3
  rw [View.read_apply]
  show V c main_v21 _ = V c main_v21 _
  congr 1
  funext a; apply Fin.ext
  match a with
  | ⟨0, _⟩ => show win3_1.index t (0 : Fin 2) * 2000 + 1 * p.val = n.val; rw [e0, hn]; omega
  | ⟨1, _⟩ => show win3_1.index t (1 : Fin 2) * 1 + 1 * 0 = 0; rw [e1]

/-- The weights' block at any point is the weights. -/
theorem weightBlock_apply (c : Dev nD) (t : Fin cfg3.N) (k : Fin 64) (q : Fin 64) :
    (iblk3 (F := Ideal) V c 2 t : Vec Ideal S64x64 .bf16) (ix2 k q) = (V c main_v70 : S64x64.Idx → EReal) (ix2 k q) := by
  obtain ⟨-, -, -, -, e0, e1, -⟩ := blockIndex t
  unfold iblk3
  rw [View.read_apply]
  show V c main_v70 _ = V c main_v70 _
  congr 1
  funext a; apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The bias' block at any point is the bias. -/
theorem biasBlock_apply (c : Dev nD) (t : Fin cfg3.N) (q : Fin 64) :
    (iblk3 (F := Ideal) V c 3 t : Vec Ideal S1x64 .f32) (ix2 0 q) = (V c main_v73 : S1x64.Idx → EReal) (ix2 0 q) := by
  obtain ⟨-, -, -, -, -, -, e0, e1, -⟩ := blockIndex t
  unfold iblk3
  rw [View.read_apply]
  show V c main_v73 _ = V c main_v73 _
  congr 1
  funext a; apply Fin.ext
  match a with
  | ⟨0, _⟩ => show win3_3.index t (0 : Fin 2) * 1 + 1 * 0 = 0; rw [e0]
  | ⟨1, _⟩ => show win3_3.index t (1 : Fin 2) * 64 + 1 * q.val = q.val; rw [e1]; omega

/-! ## What a point writes back, and the array after the run -/

/-- THE OUTPUT'S BLOCK AT POINT `t`, entry by entry: the entry of the block at `j` is the layer's output at the array
    index `i` in row `2000 t + j 0`, feature `j 1`. -/
theorem layer_block (c : Dev nD) (t : Fin cfg3.N) (j : S2000x64.Idx) (i : S100000x64.Idx)
    (hi0 : (i 0).val = t.val * 2000 + (j 0).val) (hi1 : (i 1).val = (j 1).val) :
    k3_pay1 (F := Ideal) (iblk3 V c 0 t) (iblk3 V c 1 t) (iblk3 V c 2 t) (iblk3 V c 3 t) j
      = Cert.Spec.layer (V c main_v67) (V c main_v21) (V c main_v70) (V c main_v73) i := by
  obtain ⟨p, q, rfl⟩ : ∃ (p : Fin 2000) (q : Fin 64), j = ix2 p q := ⟨j 0, j 1, eq_ix2 j⟩
  obtain ⟨n, d, rfl⟩ : ∃ (n : Fin 100000) (d : Fin 64), i = ix2 n d := ⟨i 0, i 1, eq_ix2 i⟩
  have hn : n.val = t.val * 2000 + p.val := hi0
  obtain rfl : d = q := Fin.ext hi1
  refine (congrFun (k3_pay1_eq (iblk3 V c 0 t) (iblk3 V c 1 t) (iblk3 V c 2 t) (iblk3 V c 3 t)) (ix2 p d)).trans ?_
  exact Reg1.k1_pay1_eq_layer (iblk3 V c 0 t) (iblk3 V c 1 t) (iblk3 V c 2 t) (iblk3 V c 3 t)
    (V c main_v67) (V c main_v21) (V c main_v70) (V c main_v73) p d n
    (fun k => aggBlock_apply V c t p k n hn) (innBlock_apply V c t p n hn)
    (fun k => weightBlock_apply V c t k d) (biasBlock_apply V c t d)

/-- WHAT POINT `t` WRITES BACK is block `t` of the layer's output of the arrays as the region finds them. -/
theorem flushed_h (c : Dev nD) (t : Fin cfg3.N) :
    (dat3 (F := Ideal) V c).flushed 4 t
      = ((cfg3.win 4).blk t).view.read (Elt Ideal) (Cert.Spec.layer (V c main_v67) (V c main_v21) (V c main_v70) (V c main_v73)) := by
  show (cfg3.win 4).cut (grid3.coords t) ((dat3 V c).after 4 t) = _
  rw [after3_4]
  unfold out3_4
  rw [View.canon_unit_zero hz]
  simp only [View.ld_unit_zero (S := S2000x64) hz, View.ld_unit_zero (S := S2000x1) hz, View.ld_unit_zero (S := S64x64) hz, View.ld_unit_zero (S := S1x64) hz]
  obtain ⟨-, -, -, -, -, -, -, -, e0, e1⟩ := blockIndex t
  funext j
  refine layer_block V c t j (((cfg3.win 4).blk t).view.emb j) ?_ ?_
  · show win3_4.index t (0 : Fin 2) * 2000 + 1 * (j 0).val = t.val * 2000 + (j 0).val
    rw [e0]; omega
  · show win3_4.index t (1 : Fin 2) * 64 + 1 * (j 1).val = (j 1).val
    rw [e1]; omega

/-- An index of the output is in point `t`'s block iff each coordinate is in the block's range on its axis. -/
theorem mem_block_h (t : Fin cfg3.N) (i : S100000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v74).slice (win3_4.rect t)).set ↔ _
  rw [View.set_slice_whole, Rect.mem_set_unit]
  exact Iff.rfl

/-- The point that works on row `r` is `r / 2000`. -/
def pointOf (i : S100000x64.Idx) : Fin cfg3.N := ⟨(i 0).val / 2000, by
  have hi0 : (i 0).val < 100000 := (i 0).isLt
  rw [show cfg3.N = 50 from N_3]; omega⟩

/-- THE 50 BLOCKS TILE THE OUTPUT: row `r` is in the block of point `r / 2000`. -/
theorem cover_h (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨-, -, -, -, -, -, -, -, e0, e1⟩ := blockIndex (pointOf i)
  have ht : (pointOf i).val = (i 0).val / 2000 := rfl
  refine ⟨pointOf i, flush3_4 _, ?_⟩
  rw [mem_block_h]
  intro a
  match a with
  | ⟨0, _⟩ => show win3_4.index (pointOf i) (0 : Fin 2) * 2000 ≤ (i 0).val ∧ (i 0).val < win3_4.index (pointOf i) (0 : Fin 2) * 2000 + 2000; rw [e0, ht]; omega
  | ⟨1, _⟩ => show win3_4.index (pointOf i) (1 : Fin 2) * 64 ≤ (i 1).val ∧ (i 1).val < win3_4.index (pointOf i) (1 : Fin 2) * 64 + 64; rw [e1]; omega

/-- Region 3 leaves in its output array the layer's output of the arrays it is entered with. -/
theorem final_h (c : Dev nD) :
    (dat3 (F := Ideal) V c).arrAt 4 cfg3.N = Cert.Spec.layer (V c main_v67) (V c main_v21) (V c main_v70) (V c main_v73) :=
  (dat3 (F := Ideal) V c).arrAt_eq_of_cover 4 (Cert.Spec.layer (V c main_v67) (V c main_v21) (V c main_v70) (V c main_v73))
    (fun t _ => flushed_h V c t) cover_h

end Cert.KernelIdeal.Reg3

end
-- ==== Proof.RefParts.lean ====
/-
  The reference's result term, cut into the pieces the network is made of: the edge endpoints, the degree norms, one
  aggregation over the edges, one dense layer, the row scaling, the embedding lookup, the mean pooling at the end.
  Each piece is the reference's own operations on whole arrays; `net` is their composition.
-/
import proofs.«427412_j88940182766121_1_alg».proof.Proof.Gen.ReferenceIdeal

noncomputable section

namespace Cert.ReferenceIdeal.Parts

open Cert.ReferenceIdeal Cert.ReferenceIdeal.Facts₀ Cert.ReferenceIdeal.Facts Idealize.ShloMosaic

variable {F : FTy → Type} [FloatOps F]

/-- The edges' source nodes: row 0 of the edge list. -/
def src (a1 : IVec S2x1200000 32) : IVec S1200000 32 :=
  shapeCast _ (extractStridedSlice S1x1200000 ![0, 0] a1 slices_S2x1200000_S1x1200000_0_0) shapeCasts_S1x1200000_S1200000
/-- The edges' target nodes: row 1 of the edge list. -/
def dst (a1 : IVec S2x1200000 32) : IVec S1200000 32 :=
  shapeCast _ (extractStridedSlice S1x1200000 ![1, 0] a1 slices_S2x1200000_S1x1200000_1_0) shapeCasts_S1x1200000_S1200000

/-- The degree norm of every node over an endpoint list: max(count, 1) to the power -1/2. -/
def norm (e : IVec S1200000 32) : FVec F S100000 .f32 :=
  Host.powf (maximumf (Host.scatterAdd scatter_S100000_S1200000x1_S1200000_n_0_0_1 (broadcastInDim S100000 ![] bcast_S_S100000 (constant S_ .f32 0x00000000#32)) (broadcastInDim S1200000x1 ![0] bcast_S1200000_S1200000x1_0 e) (broadcastInDim S1200000 ![] bcast_S_S1200000 (constant S_ .f32 0x3F800000#32))) (broadcastInDim S100000 ![] bcast_S_S100000 (constant S_ .f32 0x3F800000#32))) (broadcastInDim S100000 ![] bcast_S_S100000 (constant S_ .f32 0xBF000000#32))

/-- One aggregation: every node sums the rows of `hs` at the sources of its incoming edges. -/
def agg (hs : FVec F S100000x64 .f32) (a1 : IVec S2x1200000 32) : FVec F S100000x64 .f32 :=
  Host.scatterAdd scatter_S100000x64_S1200000x1_S1200000x64_1_0_0_1 (broadcastInDim S100000x64 ![] bcast_S_S100000x64 (constant S_ .f32 0x00000000#32)) (broadcastInDim S1200000x1 ![0] bcast_S1200000_S1200000x1_0 (dst a1)) (Host.gather gather_S100000x64_S1200000x1_S1200000x64_1_0_n_n_0_1_164 hs (broadcastInDim S1200000x1 ![0] bcast_S1200000_S1200000x1_0 (select (cmpi .slt (src a1) (broadcastInDim S1200000 ![] bcast_S_S1200000 (constantI S_ 32 0#32))) (addi (src a1) (broadcastInDim S1200000 ![] bcast_S_S1200000 (constantI S_ 32 100000#32))) (src a1))))

/-- Rows scaled by a per-node factor. -/
def scale (h : FVec F S100000x64 .f32) (s : FVec F S100000 .f32) : FVec F S100000x64 .f32 :=
  mulf h (broadcastInDim S100000x64 ![0, 1] bcast_S100000x1_S100000x64_0_1 (broadcastInDim S100000x1 ![0] bcast_S100000_S100000x1_0 s))

/-- One dense layer on scaled rows: the matrix product, the bias, the rectifier. -/
def dense (x : FVec F S100000x64 .f32) (W : FVec F S64x64 .f32) (b : FVec F S64 .f32) : FVec F S100000x64 .f32 :=
  maximumf (addf (Host.dotGeneral dot_S100000x64_S64x64_S100000x64_1_0_0_1_n_n none x W) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The three layers' weight matrices and biases. -/
def wt0 (a4 : FVec F S3x64x64 .f32) : FVec F S64x64 .f32 := shapeCast _ (extractStridedSlice S1x64x64 ![0, 0, 0] a4 slices_S3x64x64_S1x64x64_0_0_0) shapeCasts_S1x64x64_S64x64
def wt1 (a4 : FVec F S3x64x64 .f32) : FVec F S64x64 .f32 := shapeCast _ (extractStridedSlice S1x64x64 ![1, 0, 0] a4 slices_S3x64x64_S1x64x64_1_0_0) shapeCasts_S1x64x64_S64x64
def wt2 (a4 : FVec F S3x64x64 .f32) : FVec F S64x64 .f32 := shapeCast _ (extractStridedSlice S1x64x64 ![2, 0, 0] a4 slices_S3x64x64_S1x64x64_2_0_0) shapeCasts_S1x64x64_S64x64
def bs0 (a5 : FVec F S3x64 .f32) : FVec F S64 .f32 := shapeCast _ (extractStridedSlice S1x64 ![0, 0] a5 slices_S3x64_S1x64_0_0) shapeCasts_S1x64_S64
def bs1 (a5 : FVec F S3x64 .f32) : FVec F S64 .f32 := shapeCast _ (extractStridedSlice S1x64 ![1, 0] a5 slices_S3x64_S1x64_1_0) shapeCasts_S1x64_S64
def bs2 (a5 : FVec F S3x64 .f32) : FVec F S64 .f32 := shapeCast _ (extractStridedSlice S1x64 ![2, 0] a5 slices_S3x64_S1x64_2_0) shapeCasts_S1x64_S64

/-- The embedding lookup: row n is the table's row at node n's type (a negative type read from the end). -/
def lookup (a0 : IVec S100000 32) (a3 : FVec F S1000x64 .f32) : FVec F S100000x64 .f32 :=
  Host.gather gather_S1000x64_S100000x1_S100000x64_1_0_n_n_0_1_164 a3 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 1000#32))) a0))

/-- The mean pooling: per graph, the sum of its nodes' rows over max(its node count, 1). -/
def pool (h : FVec F S100000x64 .f32) (a2 : IVec S100000 32) : FVec F S64x64 .f32 :=
  Host.divf (Host.scatterAdd scatter_S64x64_S100000x1_S100000x64_1_0_0_1 (broadcastInDim S64x64 ![] bcast_S_S64x64 (constant S_ .f32 0x00000000#32)) (broadcastInDim S100000x1 ![0] bcast_S100000_S100000x1_0 a2) h) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 a2) (broadcastInDim S100000 ![] bcast_S_S100000 (constant S_ .f32 0x3F800000#32))) (broadcastInDim S64 ![] bcast_S_S64 (constant S_ .f32 0x3F800000#32)))))

/-- The whole network as the composition of its pieces. -/
def net (a0 : IVec S100000 32) (a1 : IVec S2x1200000 32) (a2 : IVec S100000 32) (a3 : FVec F S1000x64 .f32)
    (a4 : FVec F S3x64x64 .f32) (a5 : FVec F S3x64 .f32) : FVec F S64x64 .f32 :=
  let on := norm (F := F) (src a1)
  let inn := norm (F := F) (dst a1)
  let h0 := lookup a0 a3
  let h1 := dense (scale (agg (scale h0 on) a1) inn) (wt0 a4) (bs0 a5)
  let h2 := dense (scale (agg (scale h1 on) a1) inn) (wt1 a4) (bs1 a5)
  let h3 := dense (scale (agg (scale h2 on) a1) inn) (wt2 a4) (bs2 a5)
  pool h3 a2

end Cert.ReferenceIdeal.Parts

end
-- ==== Proof.KChain.lean ====
import proofs.«427412_j88940182766121_1_alg».proof.Proof.Gen.KernelIdeal.Frame
import proofs.«427412_j88940182766121_1_alg».proof.Proof.RefParts
import proofs.«427412_j88940182766121_1_alg».proof.Proof.Spec
import Idealize.ShloMosaic.Lib.StableHlo.Run
import Idealize.ShloMosaic.PureOps.Ideal

set_option maxRecDepth 16384

/-
  The kernel program's result, followed from the launch memory through its nine stretches: what each host stretch
  computes of the arrays before it, what each of the four kernel regions leaves in its output arrays (the
  specification's scaled lookup and layers of the arrays it is entered with), and what every later stretch still
  finds in the arrays no one has written since. The last line reads the result array as the mean pooling of the third
  layer's output.
-/
noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Parts

variable (m : (ℓ : Loc nD τ sig) → Buf (Elt Ideal) ℓ) (ρ : Dev nD → PrngReg) (c : Dev nD)

/-- The six argument arrays at launch. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)

/-- What the four kernel regions leave in the output arrays the later stages read, for any entry contents: the scaled
    lookup, the two scaled layers, the last layer. -/
structure Regions : Prop where
  r0 : ∀ (V : (c : Dev nD) → (b : Ref sig .tc) → Buf (Elt Ideal) ((c : Thread nD τ).loc b)) (c : Dev nD),
    (dat0 (F := Ideal) V c).arrAt 3 cfg0.N = Cert.Spec.embScaled (V c main_v19) (V c main_v20) (V c main_v22)
  r1 : ∀ (V : (c : Dev nD) → (b : Ref sig .tc) → Buf (Elt Ideal) ((c : Thread nD τ).loc b)) (c : Dev nD),
    (dat1 (F := Ideal) V c).arrAt 6 cfg1.N = Cert.Spec.layerScaled (V c main_v33) (V c main_v21) (V c main_v36) (V c main_v39) (V c main_v20)
  r2 : ∀ (V : (c : Dev nD) → (b : Ref sig .tc) → Buf (Elt Ideal) ((c : Thread nD τ).loc b)) (c : Dev nD),
    (dat2 (F := Ideal) V c).arrAt 6 cfg2.N = Cert.Spec.layerScaled (V c main_v50) (V c main_v21) (V c main_v53) (V c main_v56) (V c main_v20)
  r3 : ∀ (V : (c : Dev nD) → (b : Ref sig .tc) → Buf (Elt Ideal) ((c : Thread nD τ).loc b)) (c : Dev nD),
    (dat3 (F := Ideal) V c).arrAt 4 cfg3.N = Cert.Spec.layer (V c main_v67) (V c main_v21) (V c main_v70) (V c main_v73)

/-! ## The arrays the stages hand on, named -/

/-- Node types, out-degree norm and in-degree norm as columns [N, 1]. -/
abbrev nf2 : IVec S100000x1 32 := shapeCast S100000x1 (a0 m c) shapeCasts_S100000_S100000x1
abbrev on2 : FVec Ideal S100000x1 .f32 := shapeCast S100000x1 (norm (F := Ideal) (src (a1 m c))) shapeCasts_S100000_S100000x1
abbrev in2 : FVec Ideal S100000x1 .f32 := shapeCast S100000x1 (norm (F := Ideal) (dst (a1 m c))) shapeCasts_S100000_S100000x1
/-- The three layers' biases as rows [1, D]. -/
abbrev br0 : FVec Ideal S1x64 .f32 := shapeCast S1x64 (bs0 (F := Ideal) (a5 m c)) shapeCasts_S64_S1x64
abbrev br1 : FVec Ideal S1x64 .f32 := shapeCast S1x64 (bs1 (F := Ideal) (a5 m c)) shapeCasts_S64_S1x64
abbrev br2 : FVec Ideal S1x64 .f32 := shapeCast S1x64 (bs2 (F := Ideal) (a5 m c)) shapeCasts_S64_S1x64
/-- The scaled lookup, then per layer the aggregate, the layer's output and its scaled rows. -/
abbrev hs0 : FVec Ideal S100000x64 .f32 := Cert.Spec.embScaled (nf2 m c) (on2 m c) (a3 m c)
abbrev ag1 : FVec Ideal S100000x64 .f32 := agg (F := Ideal) (hs0 m c) (a1 m c)
abbrev hs1 : FVec Ideal S100000x64 .f32 := Cert.Spec.layerScaled (ag1 m c) (in2 m c) (wt0 (F := Ideal) (a4 m c)) (br0 m c) (on2 m c)
abbrev ag2 : FVec Ideal S100000x64 .f32 := agg (F := Ideal) (hs1 m c) (a1 m c)
abbrev hs2 : FVec Ideal S100000x64 .f32 := Cert.Spec.layerScaled (ag2 m c) (in2 m c) (wt1 (F := Ideal) (a4 m c)) (br1 m c) (on2 m c)
abbrev ag3 : FVec Ideal S100000x64 .f32 := agg (F := Ideal) (hs2 m c) (a1 m c)
abbrev h3 : FVec Ideal S100000x64 .f32 := Cert.Spec.layer (ag3 m c) (in2 m c) (wt2 (F := Ideal) (a4 m c)) (br2 m c)

/-! ## After the first host stretch (region 0's entry) -/

theorem c1_v1 : W1 m ρ c (Proc.devRef .tc main_v1) = src (a1 m c) := by
  show StableHlo.after hostOps0 (W0 m ρ c) (Proc.devRef .tc main_v1) = _
  after_results_simp <;> rfl
theorem c1_v3 : W1 m ρ c (Proc.devRef .tc main_v3) = dst (a1 m c) := by
  show StableHlo.after hostOps0 (W0 m ρ c) (Proc.devRef .tc main_v3) = _
  after_results_simp <;> rfl
theorem c1_v19 : W1 m ρ c (Proc.devRef .tc main_v19) = nf2 m c := by
  show StableHlo.after hostOps0 (W0 m ρ c) (Proc.devRef .tc main_v19) = _
  after_results_simp <;> rfl
theorem c1_v20 : W1 m ρ c (Proc.devRef .tc main_v20) = on2 m c := by
  show StableHlo.after hostOps0 (W0 m ρ c) (Proc.devRef .tc main_v20) = _
  after_results_simp <;> rfl
theorem c1_v21 : W1 m ρ c (Proc.devRef .tc main_v21) = in2 m c := by
  show StableHlo.after hostOps0 (W0 m ρ c) (Proc.devRef .tc main_v21) = _
  after_results_simp <;> rfl
theorem c1_v22 : W1 m ρ c (Proc.devRef .tc main_v22) = a3 m c := by
  show StableHlo.after hostOps0 (W0 m ρ c) (Proc.devRef .tc main_v22) = _
  after_results_simp <;> rfl
theorem c1_arg1 : W1 m ρ c (Proc.devRef .tc main_arg1) = a1 m c := by
  show StableHlo.after hostOps0 (W0 m ρ c) (Proc.devRef .tc main_arg1) = _
  after_results_simp <;> rfl
theorem c1_arg2 : W1 m ρ c (Proc.devRef .tc main_arg2) = a2 m c := by
  show StableHlo.after hostOps0 (W0 m ρ c) (Proc.devRef .tc main_arg2) = _
  after_results_simp <;> rfl
theorem c1_arg4 : W1 m ρ c (Proc.devRef .tc main_arg4) = a4 m c := by
  show StableHlo.after hostOps0 (W0 m ρ c) (Proc.devRef .tc main_arg4) = _
  after_results_simp <;> rfl
theorem c1_arg5 : W1 m ρ c (Proc.devRef .tc main_arg5) = a5 m c := by
  show StableHlo.after hostOps0 (W0 m ρ c) (Proc.devRef .tc main_arg5) = _
  after_results_simp <;> rfl

/-! ## After region 0: the scaled lookup; everything else as before -/

theorem c2_v23 (R : Regions) : W2 m ρ c (Proc.devRef .tc main_v23) = hs0 m c := by
  refine (W2_arr m ρ c 3).trans ((R.r0 (V1 m ρ) c).trans ?_)
  show Cert.Spec.embScaled (W1 m ρ c (Proc.devRef .tc main_v19)) (W1 m ρ c (Proc.devRef .tc main_v20)) (W1 m ρ c (Proc.devRef .tc main_v22)) = _
  rw [c1_v19, c1_v20, c1_v22]
theorem c2_v1 : W2 m ρ c (Proc.devRef .tc main_v1) = src (a1 m c) := (W2_of_ne m ρ c main_v1 (by decide)).trans (c1_v1 m ρ c)
theorem c2_v3 : W2 m ρ c (Proc.devRef .tc main_v3) = dst (a1 m c) := (W2_of_ne m ρ c main_v3 (by decide)).trans (c1_v3 m ρ c)
/-- The out-degree norm is an input window of region 0: a region leaves its input arrays as it found them. -/
theorem c2_v20 : W2 m ρ c (Proc.devRef .tc main_v20) = on2 m c :=
  (W2_arr m ρ c 1).trans (((dat0 (V1 m ρ) c).arrAt_in 1 rfl cfg0.N).trans ((A_eq0 (V1 m ρ) c 1).trans (c1_v20 m ρ c)))
theorem c2_v21 : W2 m ρ c (Proc.devRef .tc main_v21) = in2 m c := (W2_of_ne m ρ c main_v21 (by decide)).trans (c1_v21 m ρ c)
theorem c2_arg2 : W2 m ρ c (Proc.devRef .tc main_arg2) = a2 m c := (W2_of_ne m ρ c main_arg2 (by decide)).trans (c1_arg2 m ρ c)
theorem c2_arg4 : W2 m ρ c (Proc.devRef .tc main_arg4) = a4 m c := (W2_of_ne m ρ c main_arg4 (by decide)).trans (c1_arg4 m ρ c)
theorem c2_arg5 : W2 m ρ c (Proc.devRef .tc main_arg5) = a5 m c := (W2_of_ne m ρ c main_arg5 (by decide)).trans (c1_arg5 m ρ c)

/-! ## After the second host stretch (region 1's entry): the first aggregate, layer 0's weights and bias -/

theorem c3_v33 (R : Regions) : W3 m ρ c (Proc.devRef .tc main_v33) = ag1 m c := by
  show StableHlo.after hostOps1 (W2 m ρ c) (Proc.devRef .tc main_v33) = _
  after_results_simp
  rw [c2_v23 m ρ c R, c2_v1, c2_v3]
  rfl
theorem c3_v36 : W3 m ρ c (Proc.devRef .tc main_v36) = wt0 (F := Ideal) (a4 m c) := by
  show StableHlo.after hostOps1 (W2 m ρ c) (Proc.devRef .tc main_v36) = _
  after_results_simp
  rw [c2_arg4]
  rfl
theorem c3_v39 : W3 m ρ c (Proc.devRef .tc main_v39) = br0 m c := by
  show StableHlo.after hostOps1 (W2 m ρ c) (Proc.devRef .tc main_v39) = _
  after_results_simp
  rw [c2_arg5]
  rfl
theorem c3_v1 : W3 m ρ c (Proc.devRef .tc main_v1) = src (a1 m c) := by
  show StableHlo.after hostOps1 (W2 m ρ c) (Proc.devRef .tc main_v1) = _
  after_results_simp; exact c2_v1 m ρ c
theorem c3_v3 : W3 m ρ c (Proc.devRef .tc main_v3) = dst (a1 m c) := by
  show StableHlo.after hostOps1 (W2 m ρ c) (Proc.devRef .tc main_v3) = _
  after_results_simp; exact c2_v3 m ρ c
theorem c3_v20 : W3 m ρ c (Proc.devRef .tc main_v20) = on2 m c := by
  show StableHlo.after hostOps1 (W2 m ρ c) (Proc.devRef .tc main_v20) = _
  after_results_simp; exact c2_v20 m ρ c
theorem c3_v21 : W3 m ρ c (Proc.devRef .tc main_v21) = in2 m c := by
  show StableHlo.after hostOps1 (W2 m ρ c) (Proc.devRef .tc main_v21) = _
  after_results_simp; exact c2_v21 m ρ c
theorem c3_arg2 : W3 m ρ c (Proc.devRef .tc main_arg2) = a2 m c := by
  show StableHlo.after hostOps1 (W2 m ρ c) (Proc.devRef .tc main_arg2) = _
  after_results_simp; exact c2_arg2 m ρ c
theorem c3_arg4 : W3 m ρ c (Proc.devRef .tc main_arg4) = a4 m c := by
  show StableHlo.after hostOps1 (W2 m ρ c) (Proc.devRef .tc main_arg4) = _
  after_results_simp; exact c2_arg4 m ρ c
theorem c3_arg5 : W3 m ρ c (Proc.devRef .tc main_arg5) = a5 m c := by
  show StableHlo.after hostOps1 (W2 m ρ c) (Proc.devRef .tc main_arg5) = _
  after_results_simp; exact c2_arg5 m ρ c

/-! ## After region 1: layer 0's scaled rows -/

theorem c4_v40_1 (R : Regions) : W4 m ρ c (Proc.devRef .tc main_v40_1) = hs1 m c := by
  refine (W4_arr m ρ c 6).trans ((R.r1 (V3 m ρ) c).trans ?_)
  show Cert.Spec.layerScaled (W3 m ρ c (Proc.devRef .tc main_v33)) (W3 m ρ c (Proc.devRef .tc main_v21)) (W3 m ρ c (Proc.devRef .tc main_v36)) (W3 m ρ c (Proc.devRef .tc main_v39)) (W3 m ρ c (Proc.devRef .tc main_v20)) = _
  rw [c3_v33 m ρ c R, c3_v21, c3_v36, c3_v39, c3_v20]
theorem c4_v1 : W4 m ρ c (Proc.devRef .tc main_v1) = src (a1 m c) := (W4_of_ne m ρ c main_v1 (by decide)).trans (c3_v1 m ρ c)
theorem c4_v3 : W4 m ρ c (Proc.devRef .tc main_v3) = dst (a1 m c) := (W4_of_ne m ρ c main_v3 (by decide)).trans (c3_v3 m ρ c)
theorem c4_v20 : W4 m ρ c (Proc.devRef .tc main_v20) = on2 m c :=
  (W4_arr m ρ c 2).trans (((dat1 (V3 m ρ) c).arrAt_in 2 rfl cfg1.N).trans ((A_eq1 (V3 m ρ) c 2).trans (c3_v20 m ρ c)))
theorem c4_v21 : W4 m ρ c (Proc.devRef .tc main_v21) = in2 m c :=
  (W4_arr m ρ c 1).trans (((dat1 (V3 m ρ) c).arrAt_in 1 rfl cfg1.N).trans ((A_eq1 (V3 m ρ) c 1).trans (c3_v21 m ρ c)))
theorem c4_arg2 : W4 m ρ c (Proc.devRef .tc main_arg2) = a2 m c := (W4_of_ne m ρ c main_arg2 (by decide)).trans (c3_arg2 m ρ c)
theorem c4_arg4 : W4 m ρ c (Proc.devRef .tc main_arg4) = a4 m c := (W4_of_ne m ρ c main_arg4 (by decide)).trans (c3_arg4 m ρ c)
theorem c4_arg5 : W4 m ρ c (Proc.devRef .tc main_arg5) = a5 m c := (W4_of_ne m ρ c main_arg5 (by decide)).trans (c3_arg5 m ρ c)

/-! ## After the third host stretch (region 2's entry) -/

theorem c5_v50 (R : Regions) : W5 m ρ c (Proc.devRef .tc main_v50) = ag2 m c := by
  show StableHlo.after hostOps2 (W4 m ρ c) (Proc.devRef .tc main_v50) = _
  after_results_simp
  rw [c4_v40_1 m ρ c R, c4_v1, c4_v3]
  rfl
theorem c5_v53 : W5 m ρ c (Proc.devRef .tc main_v53) = wt1 (F := Ideal) (a4 m c) := by
  show StableHlo.after hostOps2 (W4 m ρ c) (Proc.devRef .tc main_v53) = _
  after_results_simp
  rw [c4_arg4]
  rfl
theorem c5_v56 : W5 m ρ c (Proc.devRef .tc main_v56) = br1 m c := by
  show StableHlo.after hostOps2 (W4 m ρ c) (Proc.devRef .tc main_v56) = _
  after_results_simp
  rw [c4_arg5]
  rfl
theorem c5_v1 : W5 m ρ c (Proc.devRef .tc main_v1) = src (a1 m c) := by
  show StableHlo.after hostOps2 (W4 m ρ c) (Proc.devRef .tc main_v1) = _
  after_results_simp; exact c4_v1 m ρ c
theorem c5_v3 : W5 m ρ c (Proc.devRef .tc main_v3) = dst (a1 m c) := by
  show StableHlo.after hostOps2 (W4 m ρ c) (Proc.devRef .tc main_v3) = _
  after_results_simp; exact c4_v3 m ρ c
theorem c5_v20 : W5 m ρ c (Proc.devRef .tc main_v20) = on2 m c := by
  show StableHlo.after hostOps2 (W4 m ρ c) (Proc.devRef .tc main_v20) = _
  after_results_simp; exact c4_v20 m ρ c
theorem c5_v21 : W5 m ρ c (Proc.devRef .tc main_v21) = in2 m c := by
  show StableHlo.after hostOps2 (W4 m ρ c) (Proc.devRef .tc main_v21) = _
  after_results_simp; exact c4_v21 m ρ c
theorem c5_arg2 : W5 m ρ c (Proc.devRef .tc main_arg2) = a2 m c := by
  show StableHlo.after hostOps2 (W4 m ρ c) (Proc.devRef .tc main_arg2) = _
  after_results_simp; exact c4_arg2 m ρ c
theorem c5_arg4 : W5 m ρ c (Proc.devRef .tc main_arg4) = a4 m c := by
  show StableHlo.after hostOps2 (W4 m ρ c) (Proc.devRef .tc main_arg4) = _
  after_results_simp; exact c4_arg4 m ρ c
theorem c5_arg5 : W5 m ρ c (Proc.devRef .tc main_arg5) = a5 m c := by
  show StableHlo.after hostOps2 (W4 m ρ c) (Proc.devRef .tc main_arg5) = _
  after_results_simp; exact c4_arg5 m ρ c

/-! ## After region 2: layer 1's scaled rows -/

theorem c6_v57_1 (R : Regions) : W6 m ρ c (Proc.devRef .tc main_v57_1) = hs2 m c := by
  refine (W6_arr m ρ c 6).trans ((R.r2 (V5 m ρ) c).trans ?_)
  show Cert.Spec.layerScaled (W5 m ρ c (Proc.devRef .tc main_v50)) (W5 m ρ c (Proc.devRef .tc main_v21)) (W5 m ρ c (Proc.devRef .tc main_v53)) (W5 m ρ c (Proc.devRef .tc main_v56)) (W5 m ρ c (Proc.devRef .tc main_v20)) = _
  rw [c5_v50 m ρ c R, c5_v21, c5_v53, c5_v56, c5_v20]
theorem c6_v1 : W6 m ρ c (Proc.devRef .tc main_v1) = src (a1 m c) := (W6_of_ne m ρ c main_v1 (by decide)).trans (c5_v1 m ρ c)
theorem c6_v3 : W6 m ρ c (Proc.devRef .tc main_v3) = dst (a1 m c) := (W6_of_ne m ρ c main_v3 (by decide)).trans (c5_v3 m ρ c)
theorem c6_v21 : W6 m ρ c (Proc.devRef .tc main_v21) = in2 m c :=
  (W6_arr m ρ c 1).trans (((dat2 (V5 m ρ) c).arrAt_in 1 rfl cfg2.N).trans ((A_eq2 (V5 m ρ) c 1).trans (c5_v21 m ρ c)))
theorem c6_arg2 : W6 m ρ c (Proc.devRef .tc main_arg2) = a2 m c := (W6_of_ne m ρ c main_arg2 (by decide)).trans (c5_arg2 m ρ c)
theorem c6_arg4 : W6 m ρ c (Proc.devRef .tc main_arg4) = a4 m c := (W6_of_ne m ρ c main_arg4 (by decide)).trans (c5_arg4 m ρ c)
theorem c6_arg5 : W6 m ρ c (Proc.devRef .tc main_arg5) = a5 m c := (W6_of_ne m ρ c main_arg5 (by decide)).trans (c5_arg5 m ρ c)

/-! ## After the fourth host stretch (region 3's entry) -/

theorem c7_v67 (R : Regions) : W7 m ρ c (Proc.devRef .tc main_v67) = ag3 m c := by
  show StableHlo.after hostOps3 (W6 m ρ c) (Proc.devRef .tc main_v67) = _
  after_results_simp
  rw [c6_v57_1 m ρ c R, c6_v1, c6_v3]
  rfl
theorem c7_v70 : W7 m ρ c (Proc.devRef .tc main_v70) = wt2 (F := Ideal) (a4 m c) := by
  show StableHlo.after hostOps3 (W6 m ρ c) (Proc.devRef .tc main_v70) = _
  after_results_simp
  rw [c6_arg4]
  rfl
theorem c7_v73 : W7 m ρ c (Proc.devRef .tc main_v73) = br2 m c := by
  show StableHlo.after hostOps3 (W6 m ρ c) (Proc.devRef .tc main_v73) = _
  after_results_simp
  rw [c6_arg5]
  rfl
theorem c7_v21 : W7 m ρ c (Proc.devRef .tc main_v21) = in2 m c := by
  show StableHlo.after hostOps3 (W6 m ρ c) (Proc.devRef .tc main_v21) = _
  after_results_simp; exact c6_v21 m ρ c
theorem c7_arg2 : W7 m ρ c (Proc.devRef .tc main_arg2) = a2 m c := by
  show StableHlo.after hostOps3 (W6 m ρ c) (Proc.devRef .tc main_arg2) = _
  after_results_simp; exact c6_arg2 m ρ c

/-! ## After region 3: the third layer's output -/

theorem c8_v74 (R : Regions) : W8 m ρ c (Proc.devRef .tc main_v74) = h3 m c := by
  refine (W8_arr m ρ c 4).trans ((R.r3 (V7 m ρ) c).trans ?_)
  show Cert.Spec.layer (W7 m ρ c (Proc.devRef .tc main_v67)) (W7 m ρ c (Proc.devRef .tc main_v21)) (W7 m ρ c (Proc.devRef .tc main_v70)) (W7 m ρ c (Proc.devRef .tc main_v73)) = _
  rw [c7_v67 m ρ c R, c7_v21, c7_v70, c7_v73]
theorem c8_arg2 : W8 m ρ c (Proc.devRef .tc main_arg2) = a2 m c := (W8_of_ne m ρ c main_arg2 (by decide)).trans (c7_arg2 m ρ c)

/-! ## The result: the mean pooling of the third layer's output -/

theorem result (R : Regions) : W9 m ρ c (Proc.devRef .tc main_v86) = pool (F := Ideal) (h3 m c) (a2 m c) := by
  show StableHlo.after hostOps4 (W8 m ρ c) (Proc.devRef .tc main_v86) = _
  after_results_simp
  rw [c8_v74 m ρ c R, c8_arg2]
  rfl

end Cert.KernelIdeal.Chain

end
-- ==== Proof.RefRes.lean ====
/-
  The reference's composed result term is the network `Parts.net` of the argument arrays: the term, read from the
  outside in, is the pooling of the third layer of the aggregation of the second … down to the embedding lookup.
-/
import proofs.«427412_j88940182766121_1_alg».proof.Proof.Gen.ReferenceIdeal.Run
import proofs.«427412_j88940182766121_1_alg».proof.Proof.RefParts

noncomputable section

namespace Cert.ReferenceIdeal.Parts

open Cert.ReferenceIdeal Cert.ReferenceIdeal.Facts₀ Cert.ReferenceIdeal.Facts Idealize.ShloMosaic

variable {F : FTy → Type} [FloatOps F]

set_option maxRecDepth 8192 in
/-- The reference's composed term is the network. -/
theorem res_eq (m : (ℓ : Loc nD τ sig) → Buf (Elt F) ℓ) (c : Dev nD) :
    Cert.ReferenceIdeal.Value.res_main_v112 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v112
  rfl

end Cert.ReferenceIdeal.Parts

end
-- ==== Proof.RefLayer.lean ====
import proofs.«427412_j88940182766121_1_alg».proof.Proof.Gen.ReferenceIdeal
import proofs.«427412_j88940182766121_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Layer

open Cert.ReferenceIdeal Cert.ReferenceIdeal.Facts₀ Cert.ReferenceIdeal.Facts
open Idealize.ShloMosaic Idealize.ShloMosaic.ValueIdx

/-- A per-node vector as a column [N, 1]. -/
abbrev col (s : FVec Ideal S100000 .f32) : FVec Ideal S100000x1 .f32 := broadcastInDim S100000x1 ![0] bcast_S100000_S100000x1_0 s
/-- A per-feature vector as a row [1, D]. -/
abbrev row (b : FVec Ideal S64 .f32) : FVec Ideal S1x64 .f32 := broadcastInDim S1x64 ![1] bcast_S64_S1x64_1 b

/-! ### Each layout operation of the layer read at an index -/

/-- A per-node vector broadcast to a column, read at (n, z), is the vector at n. -/
theorem bcastCol_apply {α : Type} (y : S100000.Idx → α) (n : Fin 100000) (z : Fin 1) :
    broadcastInDim S100000x1 ![0] bcast_S100000_S100000x1_0 y (ix2 n z) = y (ix1 n) :=
  broadcastInDim_apply _ bcast_S100000_S100000x1_0 y (ix2 n z) (ix1 n) (fun a => match a with
    | ⟨0, _⟩ => by show n.val = if (100000 : Nat) = 1 then 0 else n.val; rw [if_neg (by decide)])

/-- A column broadcast along the features, read at (n, k), is the column at (n, 0). -/
theorem bcastColWide_apply {α : Type} (y : S100000x1.Idx → α) (n : Fin 100000) (k : Fin 64) :
    broadcastInDim S100000x64 ![0, 1] bcast_S100000x1_S100000x64_0_1 y (ix2 n k) = y (ix2 n 0) :=
  broadcastInDim_apply _ bcast_S100000x1_S100000x64_0_1 y (ix2 n k) (ix2 n 0) (fun a => match a with
    | ⟨0, _⟩ => by show n.val = if (100000 : Nat) = 1 then 0 else n.val; rw [if_neg (by decide)]
    | ⟨1, _⟩ => by show 0 = if (1 : Nat) = 1 then 0 else k.val; rw [if_pos rfl])

/-- A per-feature vector broadcast to a row, read at (z, d), is the vector at d. -/
theorem bcastRow_apply {α : Type} (y : S64.Idx → α) (z : Fin 1) (d : Fin 64) :
    broadcastInDim S1x64 ![1] bcast_S64_S1x64_1 y (ix2 z d) = y (ix1 d) :=
  broadcastInDim_apply _ bcast_S64_S1x64_1 y (ix2 z d) (ix1 d) (fun a => match a with
    | ⟨0, _⟩ => by show d.val = if (64 : Nat) = 1 then 0 else d.val; rw [if_neg (by decide)])

/-- A row broadcast along the nodes, read at (n, d), is the row at (0, d). -/
theorem bcastRowWide_apply {α : Type} (y : S1x64.Idx → α) (n : Fin 100000) (d : Fin 64) :
    broadcastInDim S100000x64 ![0, 1] bcast_S1x64_S100000x64_0_1 y (ix2 n d) = y (ix2 0 d) :=
  broadcastInDim_apply _ bcast_S1x64_S100000x64_0_1 y (ix2 n d) (ix2 0 d) (fun a => match a with
    | ⟨0, _⟩ => by show 0 = if (1 : Nat) = 1 then 0 else n.val; rw [if_pos rfl]
    | ⟨1, _⟩ => by show d.val = if (64 : Nat) = 1 then 0 else d.val; rw [if_neg (by decide)])

/-- The scalar zero broadcast over the whole array reads 0 everywhere. -/
theorem bcastZero_apply (i : S100000x64.Idx) :
    broadcastInDim S100000x64 ![] bcast_S_S100000x64 (constant (F := Ideal) S_ .f32 0x00000000#32) i = (0 : EReal) := by
  rw [broadcastInDim_apply _ bcast_S_S100000x64 _ i (fun a => a.elim0) (fun a => a.elim0)]
  exact Ideal.ofBits_zero_f32

/-- The left operand's node coordinate in the dense map is the output's. -/
theorem dot_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The left operand's feature coordinate is the contracted one. -/
theorem dot_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand's row coordinate is the contracted one. -/
theorem dot_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right operand's column coordinate is the output's feature. -/
theorem dot_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The dense map read at (n, d): the sum over the contracted feature k of left (n, k) times right (k, d). -/
theorem dot_apply (l : FVec Ideal S100000x64 .f32) (r : FVec Ideal S64x64 .f32) (n : Fin 100000) (d : Fin 64) :
    Host.dotGeneral dot_S100000x64_S64x64_S100000x64_1_0_0_1_n_n none l r (ix2 n d)
      = ∑ k : Fin 64, l (ix2 n k) * r (ix2 k d) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n d) ((contrEquiv1 dot_S100000x64_S64x64_S100000x64_1_0_0_1_n_n 64 rfl rfl).symm k) = ix2 n k := funext fun a => Fin.ext (by
    match a with
    | ⟨0, _⟩ => exact dot_lhs_0 _ _
    | ⟨1, _⟩ => exact (dot_lhs_1 _ _).trans hk)
  have er : dot_S100000x64_S64x64_S100000x64_1_0_0_1_n_n.rhsIdx (ix2 n d) ((contrEquiv1 dot_S100000x64_S64x64_S100000x64_1_0_0_1_n_n 64 rfl rfl).symm k) = ix2 k d := funext fun a => Fin.ext (by
    match a with
    | ⟨0, _⟩ => exact (dot_rhs_0 _ _).trans hk
    | ⟨1, _⟩ => exact dot_rhs_1 _ _)
  rw [el, er]

/-- The whole layer of the reference read at (n, d). -/
theorem dense_at (x : FVec Ideal S100000x64 .f32) (inn : FVec Ideal S100000 .f32) (W : FVec Ideal S64x64 .f32) (b : FVec Ideal S64 .f32)
    (n : Fin 100000) (d : Fin 64) :
    maximumf (addf (Host.dotGeneral dot_S100000x64_S64x64_S100000x64_1_0_0_1_n_n none (mulf x (broadcastInDim S100000x64 ![0, 1] bcast_S100000x1_S100000x64_0_1 (broadcastInDim S100000x1 ![0] bcast_S100000_S100000x1_0 inn))) W) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32)) (ix2 n d)
      = Cert.Spec.layerAt x (col inn) W (row b) n d := by
  rw [maximumf_apply, addf_apply, dot_apply, bcastRowWide_apply, bcastZero_apply]
  unfold Cert.Spec.layerAt
  refine congrArg (fun t => max (t + _) 0) (Finset.sum_congr rfl fun k _ => ?_)
  rw [mulf_apply, bcastColWide_apply]

/-- The reference's dense layer on rows scaled by the in-degree norm is the specification's layer, index by index. -/
theorem dense_eq (x : FVec Ideal S100000x64 .f32) (inn : FVec Ideal S100000 .f32) (W : FVec Ideal S64x64 .f32) (b : FVec Ideal S64 .f32) :
    maximumf (addf (Host.dotGeneral dot_S100000x64_S64x64_S100000x64_1_0_0_1_n_n none (mulf x (broadcastInDim S100000x64 ![0, 1] bcast_S100000x1_S100000x64_0_1 (broadcastInDim S100000x1 ![0] bcast_S100000_S100000x1_0 inn))) W) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))
      = Cert.Spec.layer x (col inn) W (row b) := by
  funext i
  obtain ⟨n, d, rfl⟩ : ∃ (n : Fin 100000) (d : Fin 64), i = ix2 n d := ⟨i 0, i 1, eq_ix2 i⟩
  exact dense_at x inn W b n d

/-- The same rows scaled by the out-degree norm. -/
theorem dense_scaled_eq (x : FVec Ideal S100000x64 .f32) (inn : FVec Ideal S100000 .f32) (W : FVec Ideal S64x64 .f32) (b : FVec Ideal S64 .f32) (on : FVec Ideal S100000 .f32) :
    mulf (maximumf (addf (Host.dotGeneral dot_S100000x64_S64x64_S100000x64_1_0_0_1_n_n none (mulf x (broadcastInDim S100000x64 ![0, 1] bcast_S100000x1_S100000x64_0_1 (broadcastInDim S100000x1 ![0] bcast_S100000_S100000x1_0 inn))) W) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))) (broadcastInDim S100000x64 ![0, 1] bcast_S100000x1_S100000x64_0_1 (broadcastInDim S100000x1 ![0] bcast_S100000_S100000x1_0 on))
      = Cert.Spec.layerScaled x (col inn) W (row b) (col on) := by
  funext i
  obtain ⟨n, d, rfl⟩ : ∃ (n : Fin 100000) (d : Fin 64), i = ix2 n d := ⟨i 0, i 1, eq_ix2 i⟩
  rw [mulf_apply, dense_at, bcastColWide_apply]
  rfl

/-- A reshape [N] to [N, 1] of any per-node vector is its broadcast to a column: the row-major position of (n, 0) in [N, 1] is n. -/
theorem colCast_eq {α : Type} (s : S100000.Idx → α) (h : S100000.ShapeCasts S100000x1) :
    shapeCast S100000x1 s h = broadcastInDim S100000x1 ![0] bcast_S100000_S100000x1_0 s := by
  funext i
  obtain ⟨n, z, rfl⟩ : ∃ (n : Fin 100000) (z : Fin 1), i = ix2 n z := ⟨i 0, i 1, eq_ix2 i⟩
  rw [bcastCol_apply]
  refine shapeCast_apply s h (ix2 n z) (ix1 n) ?_
  rewrite [Shape.rowMajor_val_two, Shape.rowMajor_val_one]
  have hz : z.val < 1 := z.isLt
  show n.val = n.val * 1 + z.val
  omega

/-- A reshape of a per-node vector [N] to a column [N, 1] is the same array as its broadcast to a column. -/
theorem col_eq_shapeCast (s : FVec Ideal S100000 .f32) (h : S100000.ShapeCasts S100000x1) :
    shapeCast S100000x1 s h = col s :=
  colCast_eq s h

/-- The same for a vector of 32-bit words. -/
theorem icol_eq_shapeCast (s : IVec S100000 32) (h : S100000.ShapeCasts S100000x1) :
    shapeCast S100000x1 s h = broadcastInDim S100000x1 ![0] bcast_S100000_S100000x1_0 s :=
  colCast_eq s h

/-- A reshape of a per-feature vector [D] to a row [1, D] is the same array as its broadcast to a row. -/
theorem row_eq_shapeCast (b : FVec Ideal S64 .f32) (h : S64.ShapeCasts S1x64) :
    shapeCast S1x64 b h = row b := by
  funext i
  obtain ⟨z, d, rfl⟩ : ∃ (z : Fin 1) (d : Fin 64), i = ix2 z d := ⟨i 0, i 1, eq_ix2 i⟩
  refine (shapeCast_apply b h (ix2 z d) (ix1 d) ?_).trans (bcastRow_apply b z d).symm
  rewrite [Shape.rowMajor_val_two, Shape.rowMajor_val_one]
  have hz : z.val < 1 := z.isLt
  show d.val = z.val * 64 + d.val
  omega

end Cert.ReferenceIdeal.Layer

end
-- ==== Proof.RefEmb.lean ====
import proofs.«427412_j88940182766121_1_alg».proof.Proof.Gen.ReferenceIdeal
import proofs.«427412_j88940182766121_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.Emb

open Cert.ReferenceIdeal Cert.ReferenceIdeal.Facts₀ Cert.ReferenceIdeal.Facts
open Idealize.ShloMosaic Idealize.ShloMosaic.ValueIdx

/-! ## The layout operations of the lookup, read at an index -/

section Read
variable {α : Type}

/-- The broadcast `[N] → [N, 1]` along axis 0 reads, at `(n, c)`, the vector at `n`. -/
theorem bcast_col_apply (x : S100000.Idx → α) (n : Fin 100000) (c : Fin 1) :
    broadcastInDim S100000x1 ![0] bcast_S100000_S100000x1_0 x (ix2 n c) = x (ix1 n) :=
  broadcastInDim_apply _ bcast_S100000_S100000x1_0 x (ix2 n c) (ix1 n) (fun a => match a with
    | ⟨0, _⟩ => by show n.val = if (100000 : Nat) = 1 then 0 else n.val; rw [if_neg (by decide)])

/-- The broadcast `[N, 1] → [N, 64]` reads, at `(n, d)`, the column at `(n, 0)`. -/
theorem bcast_row_apply (x : S100000x1.Idx → α) (n : Fin 100000) (d : Fin 64) :
    broadcastInDim S100000x64 ![0, 1] bcast_S100000x1_S100000x64_0_1 x (ix2 n d) = x (ix2 n 0) :=
  broadcastInDim_apply _ bcast_S100000x1_S100000x64_0_1 x (ix2 n d) (ix2 n 0) (fun a => match a with
    | ⟨0, _⟩ => by show n.val = if (100000 : Nat) = 1 then 0 else n.val; rw [if_neg (by decide)]
    | ⟨1, _⟩ => by show 0 = if (1 : Nat) = 1 then 0 else d.val; rw [if_pos rfl])

/-- THE ROW GATHER READ AT `(n, d)`: the table at the row the start index `idx (n, 0)` names, read signed and clamped into
    `[0, 999]`, and at column `d`. -/
theorem gather_row_apply {w : Nat} (x : S1000x64.Idx → α) (idx : IVec S100000x1 w) (n : Fin 100000) (d : Fin 64) :
    Host.gather gather_S1000x64_S100000x1_S100000x64_1_0_n_n_0_1_164 x idx (ix2 n d)
      = x (ix2 ⟨min (idx (ix2 n 0)).toInt.toNat 999, by omega⟩ d) := by
  unfold Host.gather
  congr 1
  have h0 : (gather_S1000x64_S100000x1_S100000x64_1_0_n_n_0_1_164.operandIdx (ix2 n d) idx (0 : Fin 2)).val = min (idx (ix2 n 0)).toInt.toNat 999 := by
    show gather_S1000x64_S100000x1_S100000x64_1_0_n_n_0_1_164.start (ix2 n d) idx 0 + gather_S1000x64_S100000x1_S100000x64_1_0_n_n_0_1_164.batchCoord (ix2 n d) 0 + gather_S1000x64_S100000x1_S100000x64_1_0_n_n_0_1_164.offCoord (ix2 n d) 0 = _
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ gather_S1000x64_S100000x1_S100000x64_1_0_n_n_0_1_164.startIndexMap from List.mem_singleton.mpr rfl)]
    have hsi : gather_S1000x64_S100000x1_S100000x64_1_0_n_n_0_1_164.siIdx (ix2 n d)
        ⟨List.idxOf (0 : Fin 2) gather_S1000x64_S100000x1_S100000x64_1_0_n_n_0_1_164.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  have h1 : (gather_S1000x64_S100000x1_S100000x64_1_0_n_n_0_1_164.operandIdx (ix2 n d) idx (1 : Fin 2)).val = d.val := by
    show gather_S1000x64_S100000x1_S100000x64_1_0_n_n_0_1_164.start (ix2 n d) idx 1 + gather_S1000x64_S100000x1_S100000x64_1_0_n_n_0_1_164.batchCoord (ix2 n d) 1 + gather_S1000x64_S100000x1_S100000x64_1_0_n_n_0_1_164.offCoord (ix2 n d) 1 = _
    rw [GatherDims.batchCoord_eq_zero _ _ _ List.not_mem_nil, Nat.add_zero]
    unfold GatherDims.start
    rw [dif_neg (show (1 : Fin 2) ∉ gather_S1000x64_S100000x1_S100000x64_1_0_n_n_0_1_164.startIndexMap from by decide), Nat.zero_add]
    unfold GatherDims.offCoord
    rw [dif_pos (show (1 : Fin 2) ∈ gather_S1000x64_S100000x1_S100000x64_1_0_n_n_0_1_164.sKept from by decide)]
    rfl
  funext a
  refine Fin.ext ?_
  match a with
  | ⟨0, _⟩ => exact h0
  | ⟨1, _⟩ => exact h1

/-- The same read with the clamped row named: if the clamped start index at `(n, 0)` is `r`, the gather at `(n, d)` is the
    table at `(r, d)`. -/
theorem gather_row_eq {w : Nat} (x : S1000x64.Idx → α) (idx : IVec S100000x1 w) (n : Fin 100000) (d : Fin 64) (r : Fin 1000)
    (hr : min (idx (ix2 n 0)).toInt.toNat 999 = r.val) :
    Host.gather gather_S1000x64_S100000x1_S100000x64_1_0_n_n_0_1_164 x idx (ix2 n d) = x (ix2 r d) := by
  rw [gather_row_apply]
  exact congrArg (fun q : Fin 1000 => x (ix2 q d)) (Fin.ext hr)

end Read

/-! ## Words: a node type in the table's range -/

/-- A 32-bit word whose signed value lies in `[0, 1000)` is the word of `t < 1000` exactly when that value is `t`. -/
theorem eq_ofNat_iff {x : BitVec 32} (h0 : 0 ≤ x.toInt) (h1 : x.toInt < 1000) (t : Fin 1000) :
    x = BitVec.ofNat 32 t.val ↔ x.toInt.toNat = t.val := by
  have ht : (BitVec.ofNat 32 t.val).toInt = (t.val : Int) :=
    StableHlo.Predicate.toInt_ofNat_small t.val (by have := t.isLt; omega)
  constructor
  · intro h
    rw [h, ht]; exact Int.toNat_natCast _
  · intro h
    apply BitVec.eq_of_toInt_eq
    rw [ht, ← h]; exact (Int.toNat_of_nonneg h0).symm

/-- A signed compare "below zero" of a word whose signed value is not negative is the bit `0`. -/
theorem slt_zero_of_nonneg {x : BitVec 32} (h0 : 0 ≤ x.toInt) : IntOp.cmpi .slt x 0#32 = 0#1 := by
  have hz : (0#32 : BitVec 32).toInt = 0 := by decide
  have : x.slt 0#32 = false := by
    simp only [BitVec.slt, hz, decide_eq_false_iff_not, not_lt]; exact h0
  show BitVec.ofBool (x.slt 0#32) = 0#1
  rw [this]; rfl

/-- The sum over all types of the indicator of "x = t" times a function of `t` is the function at `x`'s value. -/
theorem sum_ind {x : BitVec 32} (h0 : 0 ≤ x.toInt) (h1 : x.toInt < 1000) (f : Fin 1000 → EReal) :
    ∑ t : Fin 1000, Cert.Spec.ind x t * f t = f ⟨x.toInt.toNat, by omega⟩ := by
  rw [Finset.sum_eq_single (⟨x.toInt.toNat, by omega⟩ : Fin 1000)]
  · unfold Cert.Spec.ind
    rw [if_pos ((eq_ofNat_iff h0 h1 _).mpr rfl), one_mul]
  · intro t _ hne
    unfold Cert.Spec.ind
    rw [if_neg (fun h => hne (Fin.ext ((eq_ofNat_iff h0 h1 t).mp h).symm)), zero_mul]
  · intro h; exact absurd (Finset.mem_univ _) h

/-- The reference's embedding lookup scaled by the out-degree norm is the specification's scaled lookup, wherever
    every node type lies in the table's range [0, 1000): the gather reads row (type n) of the table, and the sum over
    all types of the indicator of "type n = t" times row t is that row. -/
theorem lookup_scaled_eq (a0 : IVec S100000 32) (a3 : FVec Ideal S1000x64 .f32) (on : FVec Ideal S100000 .f32)
    (hr : ∀ n : Fin 100000, 0 ≤ (a0 (ix1 n)).toInt ∧ (a0 (ix1 n)).toInt < 1000) :
    mulf (Host.gather gather_S1000x64_S100000x1_S100000x64_1_0_n_n_0_1_164 a3 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 1000#32))) a0))) (broadcastInDim S100000x64 ![0, 1] bcast_S100000x1_S100000x64_0_1 (broadcastInDim S100000x1 ![0] bcast_S100000_S100000x1_0 on))
      = Cert.Spec.embScaled (broadcastInDim S100000x1 ![0] bcast_S100000_S100000x1_0 a0) (broadcastInDim S100000x1 ![0] bcast_S100000_S100000x1_0 on) a3 := by
  funext i
  obtain ⟨n, d, rfl⟩ : ∃ (n : Fin 100000) (d : Fin 64), i = ix2 n d := ⟨i 0, i 1, eq_ix2 i⟩
  obtain ⟨h0, h1⟩ := hr n
  show _ = Cert.Spec.embScaledAt _ _ a3 n d
  unfold Cert.Spec.embScaledAt
  have hidx : broadcastInDim S100000x1 ![0] bcast_S100000_S100000x1_0
      (select (cmpi .slt a0 (broadcastInDim S100000 ![] bcast_S_S100000 (constantI S_ 32 0#32)))
        (addi a0 (broadcastInDim S100000 ![] bcast_S_S100000 (constantI S_ 32 1000#32))) a0) (ix2 n 0) = a0 (ix1 n) := by
    rw [bcast_col_apply]
    show Scalar.select (IntOp.cmpi .slt (a0 (ix1 n)) 0#32) _ _ = _
    rw [slt_zero_of_nonneg h0, select_zero]
  rw [mulf_apply, gather_row_eq a3 _ n d ⟨(a0 (ix1 n)).toInt.toNat, by omega⟩ (by rw [hidx]; show min (a0 (ix1 n)).toInt.toNat 999 = (a0 (ix1 n)).toInt.toNat; omega),
    bcast_row_apply, bcast_col_apply on, bcast_col_apply a0, sum_ind h0 h1 (fun t => a3 (ix2 t d))]

end Cert.ReferenceIdeal.Emb

end
-- ==== Proof.PreRange.lean ====
import proofs.«427412_j88940182766121_1_alg».proof.Pre_finite_inputs
import proofs.«427412_j88940182766121_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Range

open Cert.Pre_finite_inputs Cert.Pre_finite_inputs.Facts
open Idealize.ShloMosaic Idealize.ShloMosaic.ValueIdx

/-- A rank-0 shape has one index. -/
instance subsingleton_scalar_idx : Subsingleton S_.Idx := ⟨fun a b => funext fun d => d.elim0⟩

/-- The precondition holds only where every node type lies in the table's range [0, 1000). -/
theorem range_of_pre (a0 : IVec S100000 32) (a1 : IVec S2x1200000 32) (a2 : IVec S100000 32)
    (a3 : FVec Ideal S1000x64 .f32) (a4 : FVec Ideal S3x64x64 .f32) (a5 : FVec Ideal S3x64 .f32)
    (h : Cert.Pre_finite_inputs.fn (F := Ideal) a0 a1 a2 a3 a4 a5 = fun _ => 1#1) :
    ∀ n : Fin 100000, 0 ≤ (a0 (ix1 n)).toInt ∧ (a0 (ix1 n)).toInt < 1000 := by
  intro n
  -- the scalar result is a conjunction of five all-reductions; keep the last two
  have h0 := congrFun h ValueIdx.ix0
  dsimp only [Cert.Pre_finite_inputs.fn, Cert.Pre_finite_inputs.fn_part1, andi] at h0
  obtain ⟨h17, h20⟩ := IntOp.andi_eq_one.1 h0
  obtain ⟨_, h16⟩ := IntOp.andi_eq_one.1 h17
  -- each all-reduction that is 1 had a 1 at entry n
  have e1 := Host.reduce_andi_all _ _ _ _ _ h16 (ix1 n)
  have e2 := Host.reduce_andi_all _ _ _ _ _ h20 (ix1 n)
  -- the entry of each comparison: a signed compare of a0 n against the broadcast constant
  have g1 : (0#32 : BitVec 32).toInt ≤ (a0 (ix1 n)).toInt := IntOp.cmpi_sge.1 e1
  have g2 : (a0 (ix1 n)).toInt < (1000#32 : BitVec 32).toInt := IntOp.cmpi_slt.1 e2
  have c0 : (0#32 : BitVec 32).toInt = 0 := by decide
  have c1 : (1000#32 : BitVec 32).toInt = 1000 := by decide
  rw [c0] at g1
  rw [c1] at g2
  exact ⟨g1, g2⟩

end Cert.Pre_finite_inputs.Range

end
-- ==== Proof.Bridge.lean ====
/-
  The reference's network and the kernel program's chain are the same function of the argument arrays, wherever every
  node type lies in the table's range: the reference's scaled lookup is the specification's (the one step that uses
  the range), each of its dense layers on aggregated, scaled rows is the specification's layer — the column and row
  broadcasts of the reference are the reshapes of the kernel program —, and the aggregation and the pooling are the
  same operations on both sides.
-/
import proofs.«427412_j88940182766121_1_alg».proof.Proof.KChain
import proofs.«427412_j88940182766121_1_alg».proof.Proof.RefParts
import proofs.«427412_j88940182766121_1_alg».proof.Proof.RefLayer
import proofs.«427412_j88940182766121_1_alg».proof.Proof.RefEmb

set_option maxRecDepth 16384

noncomputable section

namespace Cert.KernelIdeal.Bridge

open Cert.KernelIdeal Cert.KernelIdeal.Gen Cert.KernelIdeal.Chain
open Idealize.ShloMosaic Idealize.ShloMosaic.TcCoe Idealize.ShloMosaic.ValueIdx Idealize.SL.Sem
open Cert.ReferenceIdeal.Parts

variable (m : (ℓ : Loc nD τ sig) → Buf (Elt Ideal) ℓ) (c : Dev nD)

/-- The out- and in-degree norms as the reference computes them. -/
abbrev onR : FVec Ideal Cert.ReferenceIdeal.S100000 .f32 := norm (F := Ideal) (src (a1 m c))
abbrev inR : FVec Ideal Cert.ReferenceIdeal.S100000 .f32 := norm (F := Ideal) (dst (a1 m c))

theorem on2_eq : on2 m c = Cert.ReferenceIdeal.Layer.col (onR m c) := Cert.ReferenceIdeal.Layer.col_eq_shapeCast _ _
theorem in2_eq : in2 m c = Cert.ReferenceIdeal.Layer.col (inR m c) := Cert.ReferenceIdeal.Layer.col_eq_shapeCast _ _
theorem nf2_eq : nf2 m c = broadcastInDim Cert.ReferenceIdeal.S100000x1 ![0] Cert.ReferenceIdeal.Facts₀.bcast_S100000_S100000x1_0 (a0 m c) :=
  Cert.ReferenceIdeal.Layer.icol_eq_shapeCast _ _
theorem br0_eq : br0 m c = Cert.ReferenceIdeal.Layer.row (bs0 (F := Ideal) (a5 m c)) := Cert.ReferenceIdeal.Layer.row_eq_shapeCast _ _
theorem br1_eq : br1 m c = Cert.ReferenceIdeal.Layer.row (bs1 (F := Ideal) (a5 m c)) := Cert.ReferenceIdeal.Layer.row_eq_shapeCast _ _
theorem br2_eq : br2 m c = Cert.ReferenceIdeal.Layer.row (bs2 (F := Ideal) (a5 m c)) := Cert.ReferenceIdeal.Layer.row_eq_shapeCast _ _

/-- The reference's scaled embedding lookup is the chain's, where the node types are in range. -/
theorem e0 (hr : ∀ n : Fin 100000, 0 ≤ (a0 m c (ix1 n)).toInt ∧ (a0 m c (ix1 n)).toInt < 1000) :
    scale (F := Ideal) (lookup (a0 m c) (a3 m c)) (onR m c) = hs0 m c := by
  show _ = Cert.Spec.embScaled (nf2 m c) (on2 m c) (a3 m c)
  rw [nf2_eq, on2_eq]
  exact Cert.ReferenceIdeal.Emb.lookup_scaled_eq (a0 m c) (a3 m c) (onR m c) hr

/-- Layer 0 on the first aggregate, scaled: the reference's operations are the specification's scaled layer. -/
theorem e1 : scale (F := Ideal) (dense (scale (ag1 m c) (inR m c)) (wt0 (a4 m c)) (bs0 (a5 m c))) (onR m c) = hs1 m c := by
  show _ = Cert.Spec.layerScaled (ag1 m c) (in2 m c) (wt0 (F := Ideal) (a4 m c)) (br0 m c) (on2 m c)
  rw [in2_eq, br0_eq, on2_eq]
  exact Cert.ReferenceIdeal.Layer.dense_scaled_eq (ag1 m c) (inR m c) (wt0 (a4 m c)) (bs0 (a5 m c)) (onR m c)

/-- Layer 1 on the second aggregate, scaled. -/
theorem e2 : scale (F := Ideal) (dense (scale (ag2 m c) (inR m c)) (wt1 (a4 m c)) (bs1 (a5 m c))) (onR m c) = hs2 m c := by
  show _ = Cert.Spec.layerScaled (ag2 m c) (in2 m c) (wt1 (F := Ideal) (a4 m c)) (br1 m c) (on2 m c)
  rw [in2_eq, br1_eq, on2_eq]
  exact Cert.ReferenceIdeal.Layer.dense_scaled_eq (ag2 m c) (inR m c) (wt1 (a4 m c)) (bs1 (a5 m c)) (onR m c)

/-- Layer 2 on the third aggregate. -/
theorem e3 : dense (F := Ideal) (scale (ag3 m c) (inR m c)) (wt2 (a4 m c)) (bs2 (a5 m c)) = h3 m c := by
  show _ = Cert.Spec.layer (ag3 m c) (in2 m c) (wt2 (F := Ideal) (a4 m c)) (br2 m c)
  rw [in2_eq, br2_eq]
  exact Cert.ReferenceIdeal.Layer.dense_eq (ag3 m c) (inR m c) (wt2 (a4 m c)) (bs2 (a5 m c))

/-- THE BRIDGE: the reference's network of the argument arrays is the pooling of the chain's third layer. -/
theorem net_eq (hr : ∀ n : Fin 100000, 0 ≤ (a0 m c (ix1 n)).toInt ∧ (a0 m c (ix1 n)).toInt < 1000) :
    net (F := Ideal) (a0 m c) (a1 m c) (a2 m c) (a3 m c) (a4 m c) (a5 m c) = pool (F := Ideal) (h3 m c) (a2 m c) := by
  show pool (F := Ideal) (dense (scale (agg (scale (dense (scale (agg (scale (dense (scale (agg (scale (lookup (a0 m c) (a3 m c)) (onR m c)) (a1 m c)) (inR m c)) (wt0 (a4 m c)) (bs0 (a5 m c))) (onR m c)) (a1 m c)) (inR m c)) (wt1 (a4 m c)) (bs1 (a5 m c))) (onR m c)) (a1 m c)) (inR m c)) (wt2 (a4 m c)) (bs2 (a5 m c))) (a2 m c) = _
  rw [e0 m c hr, e1 m c, e2 m c, e3 m c]

end Cert.KernelIdeal.Bridge

end
-- ==== Proof.lean ====
/-
  The certificate of a three-layer graph network (100000 nodes, 64 features, 1000 node types, 1.2 million edges, 64
  graphs) computed by four kernel regions among host stretches, against its plain array reference, over the extended
  reals.

  Both programs compute the degree norms of the nodes, an embedding lookup scaled by the out-degree norm, three times
  an aggregation over the edges followed by a dense layer max((agg · in-norm) W + b, 0) (scaled again by the
  out-degree norm for the next aggregation), and a mean pooling per graph. The kernel program computes the lookup as
  a product with the indicator matrix [type n = t] and each layer block by block over the node axis; the reference
  gathers the table's rows and applies the layer to the whole array. The two lookups agree exactly where every node
  type lies in the table's range [0, 1000) — outside it the reference reads a clamped or wrapped row and the
  indicator product is zero —, which is the one use of the precondition; everything else is the same expression on
  both sides index by index (no law of the extended reals beyond 0 · x = 0 and 1 · x = x is used).

  Frames: the generated frame certificates of the two kernel programs; the reference's frame is its generated run
  with the result dropped. The ideal pass rewrote nothing, so the kernel's idealization is its own text.
-/
import proofs.«427412_j88940182766121_1_alg».proof.Defs
import proofs.«427412_j88940182766121_1_alg».proof.Proof.Gen.Kernel
import proofs.«427412_j88940182766121_1_alg».proof.Proof.Gen.Kernel.Skeleton
import proofs.«427412_j88940182766121_1_alg».proof.Proof.Gen.Kernel.Launch
import proofs.«427412_j88940182766121_1_alg».proof.Proof.Gen.Kernel.Points
import proofs.«427412_j88940182766121_1_alg».proof.Proof.Gen.Kernel.Frame
import proofs.«427412_j88940182766121_1_alg».proof.Proof.Gen.KernelIdeal
import proofs.«427412_j88940182766121_1_alg».proof.Proof.Gen.KernelIdeal.Skeleton
import proofs.«427412_j88940182766121_1_alg».proof.Proof.Gen.KernelIdeal.Launch
import proofs.«427412_j88940182766121_1_alg».proof.Proof.Gen.KernelIdeal.Points
import proofs.«427412_j88940182766121_1_alg».proof.Proof.Gen.KernelIdeal.Frame
import proofs.«427412_j88940182766121_1_alg».proof.Proof.Gen.ReferenceIdeal
import proofs.«427412_j88940182766121_1_alg».proof.Proof.Gen.Pre_finite_inputs
import proofs.«427412_j88940182766121_1_alg».proof.Proof.Gen.ReferenceIdeal.Run
import proofs.«427412_j88940182766121_1_alg».proof.Proof.RunNamed
import proofs.«427412_j88940182766121_1_alg».proof.Proof.Spec
import proofs.«427412_j88940182766121_1_alg».proof.Proof.KReg0
import proofs.«427412_j88940182766121_1_alg».proof.Proof.KReg1
import proofs.«427412_j88940182766121_1_alg».proof.Proof.KReg2
import proofs.«427412_j88940182766121_1_alg».proof.Proof.KReg3
import proofs.«427412_j88940182766121_1_alg».proof.Proof.KChain
import proofs.«427412_j88940182766121_1_alg».proof.Proof.RefParts
import proofs.«427412_j88940182766121_1_alg».proof.Proof.RefRes
import proofs.«427412_j88940182766121_1_alg».proof.Proof.RefLayer
import proofs.«427412_j88940182766121_1_alg».proof.Proof.RefEmb
import proofs.«427412_j88940182766121_1_alg».proof.Proof.PreRange
import proofs.«427412_j88940182766121_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- What the four regions leave in the arrays the later stages read. -/
theorem regions : Cert.KernelIdeal.Chain.Regions :=
  ⟨Cert.KernelIdeal.Reg0.final, Cert.KernelIdeal.Reg1.final_hs, Cert.KernelIdeal.Reg2.final_hs, Cert.KernelIdeal.Reg3.final_h⟩

/-- Both programs end with the mean pooling of the third layer's output of the same argument arrays: the kernel
    program's result array read through its stages, the reference's composed term read as the network, and the two
    joined where the node types are in range (which the precondition says). -/
theorem algebraic : Cert.algebraic_KernelIdeal_ReferenceIdeal := by
  intro m ρ m' ρ' hpre hagree
  refine ⟨fun c => Cert.KernelIdeal.Gen.W9 m ρ c (Proc.devRef .tc Cert.KernelIdeal.main_v86), Cert.KernelIdeal.Named.run_named m ρ, ?_⟩
  refine (θ_run Cert.ReferenceIdeal.defs _ _).mono (fun r h c => ⟨(h c).1.trans ?_, (h c).2⟩)
    (Cert.ReferenceIdeal.Value.run (F := Ideal) m' ρ')
  have hr := Cert.Pre_finite_inputs.Range.range_of_pre _ _ _ _ _ _ (hpre c)
  rw [Cert.ReferenceIdeal.Parts.res_eq, (hagree c).1, (hagree c).2.1, (hagree c).2.2.1, (hagree c).2.2.2.1,
    (hagree c).2.2.2.2.1, (hagree c).2.2.2.2.2]
  exact (Cert.KernelIdeal.Bridge.net_eq m c hr).trans (Cert.KernelIdeal.Chain.result m ρ c regions).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
